-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S1x10 : Shape := ⟨2, ![1, 10]⟩
abbrev S5000x1 : Shape := ⟨2, ![5000, 1]⟩

abbrev nBuf : Space → Nat
  | .hbm => 88
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S100000x1, .i32⟩
  | .hbm, ⟨85, _⟩ => ⟨S1x128, .f32⟩
  | .hbm, ⟨86, _⟩ => ⟨S1x10, .f32⟩
  | .hbm, ⟨87, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x1, .i32⟩
  | .local _ .vmem, ⟨15, _⟩ => ⟨S5000x1, .i32⟩
  | .local _ .vmem, ⟨16, _⟩ => ⟨S128x10, .f32⟩
  | .local _ .vmem, ⟨17, _⟩ => ⟨S1x10, .f32⟩
  | .local _ .vmem, ⟨18, _⟩ => ⟨S128x10, .f32⟩
  | .local _ .vmem, ⟨19, _⟩ => ⟨S128x128, .f32⟩
  | .local _ .vmem, ⟨20, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_scratch0 : Ref sig .tc := ⟨.vmem, 19, rfl⟩
abbrev cc2_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v31 : BitVec 1 := Scalar.cmpi .eq arg0 c19_i32
  let v32 : BitVec 32 := Scalar.extui v31
  let c0_i32_17 : BitVec 32 := 0#32
  let v33 : BitVec 1 := Scalar.cmpi .ne v32 c0_i32_17
  v33

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000_S100000x1 : S100000.ShapeCasts S100000x1
  shapeCasts_S10_S1x10 : S10.ShapeCasts S1x10
  shapeCasts_S128x128_S128x128 : S128x128.ShapeCasts S128x128
  iota_S5000x128_d1_w32 : S5000x128.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  natLt_1_32 : 1 < 32
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S5000x128_S128x128_0_0_1_1_n_n_wf : DotDims.WF S5000x128 S5000x128 S128x128 [0] [0] [1] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .i32 = 32 ∨ (Rect.block (s := S100000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x10.size a ≤ S128x10.size a
  hwx2_5 : ∀ i : grid2.Coords, EltTy.bits .f32 = 32 ∨ (Rect.block (s := S128x10) S128x10.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S128x10.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩
abbrev S1x10 : Shape := ⟨2, ![1, 10]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S128x128, .f32⟩
  | .hbm, ⟨97, _⟩ => ⟨S100000x1, .i32⟩
  | .hbm, ⟨98, _⟩ => ⟨S128x128, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S128, .f32⟩
  | .hbm, ⟨103, _⟩ => ⟨S100000x1, .i32⟩
  | .hbm, ⟨104, _⟩ => ⟨S128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128x1, .f32⟩
  | .hbm, ⟨109, _⟩ => ⟨S128x128, .f32⟩
  | .hbm, ⟨110, _⟩ => ⟨S128x128, .f32⟩
  | .hbm, ⟨111, _⟩ => ⟨S128x10, .f32⟩
  | .hbm, ⟨112, _⟩ => ⟨S1x10, .f32⟩
  | .hbm, ⟨113, _⟩ => ⟨S128x10, .f32⟩
  | .hbm, ⟨114, _⟩ => ⟨S128x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x10_S128x10_1_0_0_1_n_n_wf : DotDims.WF S128x128 S128x10 S128x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.K.Reg0.lean ====
/-
  The first dense transform, one row tile at a time: at grid point `t` the body reads rows `[5000 t, 5000 (t+1))`
  of the node features and the whole weight matrix, and writes their product into the same rows of the result.
  Here: each window's block at a point, what the body leaves in the result window's buffer (its one store, over the
  two blocks it read), the body's triple, and the pipeline's proof data with its obligation at every point — for any
  float family and any contents `V` of the arrays when the region is entered.
-/
import proofs.«426831_j88648124990792_1_alg».proof.Proof.Gen.Kernel.Launch
import proofs.«426831_j88648124990792_1_alg».proof.Proof.Gen.Kernel.Skeleton
import proofs.«426831_j88648124990792_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the matrix at every point: fetched once, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rTile : Rect S5000x128 := Rect.unit (s := S5000x128) ![0, 0] S5000x128.size inb_S5000x128_S5000x128_0_0
abbrev rW : Rect S128x128 := Rect.unit (s := S128x128) ![0, 0] S128x128.size inb_S128x128_S128x128_0_0

/-- The result window's buffer after the body: its one store, the product of the tile and the matrix it read. -/
def out0_2 (x0 : Vec F S5000x128 .f32) (x1 : Vec F S128x128 .f32) : Vec F S5000x128 .f32 :=
  View.canon [⟨rTile, k0_pay1 (View.ld x0 rTile) (View.ld x1 rW)⟩]

/-- That store covers the buffer. -/
theorem cover0_2 (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

/-! ## The body's triple -/

set_option maxHeartbeats 1000000 in
/-- On whole staging memrefs, the inputs' at contents `x0`, `x1` and the result's at anything, the body runs to the
    continuation with the inputs' as they were and the result's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core `c`: the arrays as the region finds them; after the body each input's buffer
    at its block and the result's at `out0_2` of the two blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Region

end
-- ==== Proof.K.Reg1.lean ====
/-
  The second dense transform, fused with the first layer's bias and rectifier: at grid point `t` the body reads
  rows `[5000 t, 5000 (t+1))` of the aggregated features, the bias row and the whole weight matrix, and writes
  `max (tile + bias, 0) · W` into the same rows of the result.
  Here: each window's block at a point, what the body leaves in the result window's buffer, the body's triple, and
  the pipeline's proof data with its obligation at every point — for any float family and any contents `V` of the
  arrays when the region is entered.
-/
import proofs.«426831_j88648124990792_1_alg».proof.Proof.Gen.Kernel.Launch
import proofs.«426831_j88648124990792_1_alg».proof.Proof.Gen.Kernel.Skeleton
import proofs.«426831_j88648124990792_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds the tile at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point: fetched once, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's staging buffer holds the matrix at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rTile1 : Rect S5000x128 := Rect.unit (s := S5000x128) ![0, 0] S5000x128.size inb_S5000x128_S5000x128_0_0
abbrev rBias1 : Rect S1x128 := Rect.unit (s := S1x128) ![0, 0] S1x128.size inb_S1x128_S1x128_0_0
abbrev rW1 : Rect S128x128 := Rect.unit (s := S128x128) ![0, 0] S128x128.size inb_S128x128_S128x128_0_0

/-- The result window's buffer after the body: its one store, over the tile, the bias row and the matrix it read. -/
def out1_3 (x0 : Vec F S5000x128 .f32) (x1 : Vec F S1x128 .f32) (x2 : Vec F S128x128 .f32) : Vec F S5000x128 .f32 :=
  View.canon [⟨rTile1, k1_pay1 (View.ld x0 rTile1) (View.ld x1 rBias1) (View.ld x2 rW1)⟩]

/-- That store covers the buffer. -/
theorem cover1_3 (p0 : Vec F S5000x128 .f32) (y : S5000x128.Idx) :
    ∃ pc ∈ ([⟨rTile1, p0⟩] : List (View.Piece (Elt F) S5000x128 .f32)), y ∈ pc.1.set :=
  View.cover_of_tiled [⟨rTile1, p0⟩] S5000x128.size (by rfl) y

/-! ## The body's triple -/

set_option maxHeartbeats 1000000 in
/-- On whole staging memrefs, the inputs' at contents `x0`, `x1`, `x2` and the result's at anything, the body runs to
    the continuation with the inputs' as they were and the result's at `out1_3 x0 x1 x2`. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Pipeline 1's proof data on core `c`: the arrays as the region finds them; after the body each input's buffer
    at its block and the result's at `out1_3` of the three blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Region

end
-- ==== Proof.K.Reg2Data.lean ====
/-
  The pooling region: at grid point `t` the body reads rows `[5000 t, 5000 (t+1))` of the aggregated features and
  of the graph ids, the bias row, and keeps two 128 × 128 accumulators in scratch memory across the 20 points — the
  per-graph sums of the rectified rows and the per-graph node counts, both as products with the one-hot matrix of the
  ids. The first point clears them before adding; the last point divides, multiplies by the output weights, adds the
  output bias and stores the 128 × 10 result, which is written back once, after that point.
  Here: the windows' blocks, the accumulators after each point as a recursion over the body's stored values, the
  result block, the invariant that carries the accumulators between points, and the pipeline's proof data — for any
  float family and any contents `V` of the arrays when the region is entered.
-/
import proofs.«426831_j88648124990792_1_alg».proof.Proof.Gen.Kernel.Launch
import proofs.«426831_j88648124990792_1_alg».proof.Proof.Gen.Kernel.Skeleton
import proofs.«426831_j88648124990792_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulators and the result block -/

/-- The two scratch operands, whole scoped buffers of the kernel's own. -/
abbrev scM2_0 : Memref sig .tc .vmem S128x128 .f32 := Memref.whole cc2_scratch0
abbrev scM2_1 : Memref sig .tc .vmem S128x128 .f32 := Memref.whole cc2_scratch1

/-- The sums accumulator and the counts accumulator after the body at point `n`: at the first point the update of
    the cleared accumulators, afterwards the update of what the point before left. -/
def acc2 (c : Dev nD) : (n : ℕ) → n < cfg2.N → Vec F S128x128 .f32 × Vec F S128x128 .f32
  | 0, h => (k2_pay5 (iblk2 V c 0 ⟨0, h⟩) (iblk2 V c 1 ⟨0, h⟩) (iblk2 V c 2 ⟨0, h⟩) (k2_pay2 (F := F)),
      k2_pay6 (iblk2 V c 2 ⟨0, h⟩) (k2_pay3 (F := F)))
  | n + 1, h => (k2_pay5 (iblk2 V c 0 ⟨n + 1, h⟩) (iblk2 V c 1 ⟨n + 1, h⟩) (iblk2 V c 2 ⟨n + 1, h⟩) (acc2 c n (Nat.lt_of_succ_lt h)).1,
      k2_pay6 (iblk2 V c 2 ⟨n + 1, h⟩) (acc2 c n (Nat.lt_of_succ_lt h)).2)

theorem acc2_zero (c : Dev nD) (h : 0 < cfg2.N) :
    acc2 V c 0 h = (k2_pay5 (iblk2 V c 0 ⟨0, h⟩) (iblk2 V c 1 ⟨0, h⟩) (iblk2 V c 2 ⟨0, h⟩) (k2_pay2 (F := F)),
      k2_pay6 (iblk2 V c 2 ⟨0, h⟩) (k2_pay3 (F := F))) := rfl

theorem acc2_succ (c : Dev nD) (n : ℕ) (h : n + 1 < cfg2.N) :
    acc2 V c (n + 1) h = (k2_pay5 (iblk2 V c 0 ⟨n + 1, h⟩) (iblk2 V c 1 ⟨n + 1, h⟩) (iblk2 V c 2 ⟨n + 1, h⟩) (acc2 V c n (Nat.lt_of_succ_lt h)).1,
      k2_pay6 (iblk2 V c 2 ⟨n + 1, h⟩) (acc2 V c n (Nat.lt_of_succ_lt h)).2) := rfl

/-- The result window's buffer after the body at a point that stores it (the last): the finalisation of the
    accumulators as that point leaves them. At the other points the window is idle and this value is not consulted. -/
def out2_5 (c : Dev nD) (t : Fin cfg2.N) : Vec F S128x10 .f32 :=
  k2_pay1 (acc2 V c t.val t.isLt).1 (acc2 V c t.val t.isLt).2 (iblk2 V c 3 t) (iblk2 V c 4 t)

/-! ## The invariant between points -/

local notation "𝕋" => fun (c : Dev nD) => (c : Thread nD τ)

/-- Before the first point, the scoped rest and the generator register as the launch hands them over; before point
    `n + 1`, the two accumulators at what point `n` left, beside what gives the launch's invariant back once the two
    scratch buffers return at any contents. -/
def PhiS2 (c : Dev nD) : (n : ℕ) → n ≤ cfg2.N → sProp 𝕄
  | 0, _ => Pipeline.ΦA spec2 c
  | n + 1, hn => iprop(owns (c : Thread nD τ) scM2_0 fullShare (acc2 V c n hn).1 ∗ owns (c : Thread nD τ) scM2_1 fullShare (acc2 V c n hn).2
      ∗ (iprop((∃ d, owns (c : Thread nD τ) scM2_0 fullShare d) ∗ (∃ d, owns (c : Thread nD τ) scM2_1 fullShare d)) -∗ Pipeline.ΦA spec2 c))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (acc2 V c n hn).1 ∗ owns (c : Thread nD τ) scM2_1 fullShare (acc2 V c n hn).2
      ∗ (iprop((∃ d, owns (c : Thread nD τ) scM2_0 fullShare d) ∗ (∃ d, owns (c : Thread nD τ) scM2_1 fullShare d)) -∗ Pipeline.ΦA spec2 c)) := rfl

theorem PhiS2_pos (c : Dev nD) (n : ℕ) (h : n ≤ cfg2.N) (hz : n ≠ 0) :
    PhiS2 V c n h = iprop(owns (c : Thread nD τ) scM2_0 fullShare (acc2 V c (n - 1) (by omega)).1 ∗ owns (c : Thread nD τ) scM2_1 fullShare (acc2 V c (n - 1) (by omega)).2
      ∗ (iprop((∃ d, owns (c : Thread nD τ) scM2_0 fullShare d) ∗ (∃ d, owns (c : Thread nD τ) scM2_1 fullShare d)) -∗ Pipeline.ΦA spec2 c)) := by
  cases n with
  | zero => exact absurd rfl hz
  | succ n => rfl

/-! ## The pipeline's proof data -/

/-- Pipeline 2's proof data on core `c`: the arrays as the region finds them; after the body each input's buffer at
    its block and the result's at `out2_5`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]

end Cert.Kernel.Region

end
-- ==== Proof.K.Frame.lean ====
/-
  The whole run of the kernel program: what the unscoped buffers hold between @main's items (each host stretch
  applied to what was there; each region's result array at what its write-backs leave), the three pipelines' proof
  data each at its region's entry contents, the three regions as segments of @main, and the frame: every weakly fair
  execution terminates and every argument array ends as launched. Region 2's body obligation and the two facts about
  its invariant are taken as hypotheses here and supplied where the claim is assembled.
-/
import proofs.«426831_j88648124990792_1_alg».proof.Proof.Gen.Kernel.Regions
import proofs.«426831_j88648124990792_1_alg».proof.Proof.K.Reg0
import proofs.«426831_j88648124990792_1_alg».proof.Proof.K.Reg1
import proofs.«426831_j88648124990792_1_alg».proof.Proof.K.Reg2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Region 0's entry contents, read at the TensorCore's references. -/
abbrev En3 : (c : Dev nD) → (b : Ref sig .tc) → Buf (Elt F) ((c : Thread nD τ).loc b) := fun c b => V3 m c b
/-- After region 0: its arrays at what the pipeline leaves, every other buffer as entered. -/
def W4 (c : Dev nD) : Valuation τ sig (Elt F) :=
  Pipeline.withArrays spec0 c (V3 m c) fun w => (dat0 (En3 m) c).arrAt w cfg0.N
theorem W4_arr (c : Dev nD) (w : Fin cfg0.W) :
    W4 m c (Proc.devRef .tc (Pipeline.arrRef spec0 w)) = (dat0 (En3 m) c).arrAt w cfg0.N := by
  unfold W4; exact Pipeline.withArrays_arr spec0 launch0.win.arr_inj c _ _ w
/-- The same as an update of the one array the region may change. -/
abbrev U4 (c : Dev nD) : Valuation τ sig (Elt F) := Function.update (V3 m c) main_v30 (W4 m c main_v30)
abbrev U5 (c : Dev nD) : Valuation τ sig (Elt F) := StableHlo.after hostOps1 (U4 m c)
abbrev En5 : (c : Dev nD) → (b : Ref sig .tc) → Buf (Elt F) ((c : Thread nD τ).loc b) := fun c b => U5 m c b
def W6 (c : Dev nD) : Valuation τ sig (Elt F) :=
  Pipeline.withArrays spec1 c (U5 m c) fun w => (dat1 (En5 m) c).arrAt w cfg1.N
theorem W6_arr (c : Dev nD) (w : Fin cfg1.W) :
    W6 m c (Proc.devRef .tc (Pipeline.arrRef spec1 w)) = (dat1 (En5 m) c).arrAt w cfg1.N := by
  unfold W6; exact Pipeline.withArrays_arr spec1 launch1.win.arr_inj c _ _ w
abbrev U6 (c : Dev nD) : Valuation τ sig (Elt F) := Function.update (U5 m c) main_v45 (W6 m c main_v45)
abbrev U7 (c : Dev nD) : Valuation τ sig (Elt F) := StableHlo.after hostOps2 (U6 m c)
abbrev En7 : (c : Dev nD) → (b : Ref sig .tc) → Buf (Elt F) ((c : Thread nD τ).loc b) := fun c b => U7 m c b
def W8 (c : Dev nD) : Valuation τ sig (Elt F) :=
  Pipeline.withArrays spec2 c (U7 m c) fun w => (dat2 (En7 m) c).arrAt w cfg2.N
theorem W8_arr (c : Dev nD) (w : Fin cfg2.W) :
    W8 m c (Proc.devRef .tc (Pipeline.arrRef spec2 w)) = (dat2 (En7 m) c).arrAt w cfg2.N := by
  unfold W8; exact Pipeline.withArrays_arr spec2 launch2.win.arr_inj c _ _ w
abbrev U8 (c : Dev nD) : Valuation τ sig (Elt F) := Function.update (U7 m c) main_v62 (W8 m c main_v62)

/-- What the regions leave in the arrays they may change. -/
def outs : Outs (F := F) := fun J r c => match J with
  | 4 => W4 m c r
  | 6 => W6 m c r
  | _ => W8 m c r

theorem V4_eq (c : Dev nD) : V4 m (outs m) c = U4 m c := rfl
theorem V5_eq (c : Dev nD) : V5 m (outs m) c = U5 m c := rfl
theorem V6_eq (c : Dev nD) : V6 m (outs m) c = U6 m c := rfl
theorem V7_eq (c : Dev nD) : V7 m (outs m) c = U7 m c := rfl
theorem V8_eq (c : Dev nD) : V8 m (outs m) c = U8 m c := rfl

theorem U4_of_ne (c : Dev nD) (b : Ref sig .tc) (h : b ≠ main_v30) : U4 m c b = V3 m c b :=
  Function.update_of_ne (StableHlo.devRef_ne_of_ne h : (Proc.devRef .tc b : DevRef τ sig) ≠ Proc.devRef .tc main_v30) _ _
theorem U6_of_ne (c : Dev nD) (b : Ref sig .tc) (h : b ≠ main_v45) : U6 m c b = U5 m c b :=
  Function.update_of_ne (StableHlo.devRef_ne_of_ne h : (Proc.devRef .tc b : DevRef τ sig) ≠ Proc.devRef .tc main_v45) _ _
theorem U8_of_ne (c : Dev nD) (b : Ref sig .tc) (h : b ≠ main_v62) : U8 m c b = U7 m c b :=
  Function.update_of_ne (StableHlo.devRef_ne_of_ne h : (Proc.devRef .tc b : DevRef τ sig) ≠ Proc.devRef .tc main_v62) _ _
theorem U4_self (c : Dev nD) : U4 m c main_v30 = W4 m c main_v30 := Function.update_self _ _ _
theorem U6_self (c : Dev nD) : U6 m c main_v45 = W6 m c main_v45 := Function.update_self _ _ _
theorem U8_self (c : Dev nD) : U8 m c main_v62 = W8 m c main_v62 := Function.update_self _ _ _

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (En3 m) c
  | ⟨1, _⟩ => fun c => dat1 (En5 m) c
  | ⟨2, _⟩ => fun c => dat2 (En7 m) c

/-- No core owes another anything: no level is assigned. -/
abbrev L₀ : GSem nD τ sig → Finset Unit := fun _ => ∅
abbrev lv₀ : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = (fun b : Ref sig .tc => U4 m c b) (Pipeline.arrRef spec0 w) := by
  match w with
  | ⟨0, _⟩ => exact (((dat0 (En3 m) c).arrAt_in 0 rfl _).trans (A_eq0 (En3 m) c 0)).trans (U4_of_ne m c _ (by decide)).symm
  | ⟨1, _⟩ => exact (((dat0 (En3 m) c).arrAt_in 1 rfl _).trans (A_eq0 (En3 m) c 1)).trans (U4_of_ne m c _ (by decide)).symm
  | ⟨2, _⟩ => exact ((W4_arr m c 2).symm.trans (U4_self m c).symm)
theorem hrest0 (c : Dev nD) : ∀ b, b ∉ Finset.univ.image (Pipeline.arrRef spec0) → (fun b : Ref sig .tc => U4 m c b) b = En3 m c b :=
  fun b hb => U4_of_ne m c b fun e => hb (Finset.mem_image.mpr ⟨2, Finset.mem_univ _, e.symm⟩)

set_option maxHeartbeats 1000000 in
theorem hF1 (c : Dev nD) (w : Fin cfg1.W) : (pdats m 1 c).arrAt w cfg1.N = (fun b : Ref sig .tc => U6 m c b) (Pipeline.arrRef spec1 w) := by
  match w with
  | ⟨0, _⟩ => exact (((dat1 (En5 m) c).arrAt_in 0 rfl _).trans (A_eq1 (En5 m) c 0)).trans (U6_of_ne m c _ (by decide)).symm
  | ⟨1, _⟩ => exact (((dat1 (En5 m) c).arrAt_in 1 rfl _).trans (A_eq1 (En5 m) c 1)).trans (U6_of_ne m c _ (by decide)).symm
  | ⟨2, _⟩ => exact (((dat1 (En5 m) c).arrAt_in 2 rfl _).trans (A_eq1 (En5 m) c 2)).trans (U6_of_ne m c _ (by decide)).symm
  | ⟨3, _⟩ => exact ((W6_arr m c 3).symm.trans (U6_self m c).symm)
theorem hrest1 (c : Dev nD) : ∀ b, b ∉ Finset.univ.image (Pipeline.arrRef spec1) → (fun b : Ref sig .tc => U6 m c b) b = En5 m c b :=
  fun b hb => U6_of_ne m c b fun e => hb (Finset.mem_image.mpr ⟨3, Finset.mem_univ _, e.symm⟩)

set_option maxHeartbeats 2000000 in
theorem hF2 (c : Dev nD) (w : Fin cfg2.W) : (pdats m 2 c).arrAt w cfg2.N = (fun b : Ref sig .tc => U8 m c b) (Pipeline.arrRef spec2 w) := by
  match w with
  | ⟨0, _⟩ => exact (((dat2 (En7 m) c).arrAt_in 0 rfl _).trans (A_eq2 (En7 m) c 0)).trans (U8_of_ne m c _ (by decide)).symm
  | ⟨1, _⟩ => exact (((dat2 (En7 m) c).arrAt_in 1 rfl _).trans (A_eq2 (En7 m) c 1)).trans (U8_of_ne m c _ (by decide)).symm
  | ⟨2, _⟩ => exact (((dat2 (En7 m) c).arrAt_in 2 rfl _).trans (A_eq2 (En7 m) c 2)).trans (U8_of_ne m c _ (by decide)).symm
  | ⟨3, _⟩ => exact (((dat2 (En7 m) c).arrAt_in 3 rfl _).trans (A_eq2 (En7 m) c 3)).trans (U8_of_ne m c _ (by decide)).symm
  | ⟨4, _⟩ => exact (((dat2 (En7 m) c).arrAt_in 4 rfl _).trans (A_eq2 (En7 m) c 4)).trans (U8_of_ne m c _ (by decide)).symm
  | ⟨5, _⟩ => exact ((W8_arr m c 5).symm.trans (U8_self m c).symm)
theorem hrest2 (c : Dev nD) : ∀ b, b ∉ Finset.univ.image (Pipeline.arrRef spec2) → (fun b : Ref sig .tc => U8 m c b) b = En7 m c b :=
  fun b hb => U8_of_ne m c b fun e => hb (Finset.mem_image.mpr ⟨5, Finset.mem_univ _, e.symm⟩)

/-! ## The regions as segments -/

set_option backward.isDefEq.respectTransparency.types false in
/-- Region 0 over the thread state: entered from every unscoped buffer at the contents before it, left at the
    contents after it; its arrays split out of the unscoped buffers and put back at what the write-backs leave; the
    generator register into the invariant and out; nothing owed; no semaphore of the kernel's own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (En3 m) c).loose
  hwaits := Pipeline.hwaits_of_owed_zero _ _ _ _ L₀ lv₀ 0 fun _ _ => rfl
  pre c := iprop(StableHlo.held (c : Thread nD τ) (Pipeline.ucRefs τ sig) (V3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec0 c (En3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En3 m c) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at what the write-backs leave; the
    generator register into the invariant and out; nothing owed; no semaphore of the kernel's own. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (En5 m) c).loose
  hwaits := Pipeline.hwaits_of_owed_zero _ _ _ _ L₀ lv₀ 1 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec1 c (En5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En5 m c) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back at what the write-backs leave; the
    generator register into the invariant and out; nothing owed; no semaphore of the kernel's own. -/
def reg2 (hb2 : ∀ V c, BodyObligation (dat2 (F := F) V c) (defs₀ (F := F)) Variants.none () Set.univ)
    (hin2 : ∀ V c, (Pipeline.ΦA spec2 c : sProp 𝕄) ⊢ (dat2 (F := F) V c).Φ 0)
    (hout2 : ∀ V c, (dat2 (F := F) V c).Φ (Fin.last cfg2.N) ⊢ (Pipeline.ΦA spec2 c : sProp 𝕄))
    : Pipeline.RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (hb2 (En7 m) c).loose
  hwaits := Pipeline.hwaits_of_owed_zero _ _ _ _ L₀ lv₀ 2 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec2 c (En7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (En7 m) c); unfold Pipeline.ΦA
    iintro ⟨Hp, -, Hr⟩
    isplitl [Hr]; · iexact Hr
    iexact Hp
  hout c := by
    rw [Pipeline.ownSems0_none]
    refine BIBase.Entails.trans (hout2 (En7 m) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En7 m c) (fun b => U8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources -/

/-- The launch's ghost state is the pipelines' cells and tokens; nothing else is set up. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core's first rest: its generator register and its dues, at nothing. -/
theorem hE0 (ρ : Dev nD → PrngReg) :
    iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄))) ∗ levAts L₀ lv₀)
      ⊢ (|={Set.univ}=> bigSep Finset.univ (fun c : Dev nD => Rr (F := F) c) : sProp 𝕄) := by
  refine Pipeline.initEach L₀ lv₀ fun c => ?_
  iintro ⟨⟨-, HO, -, Hp, -⟩, -⟩
  imodintro
  isplitl [Hp]; · iexists _; iexact Hp
  iexists ∅; iexact HO

/-! ## The frame -/

/-- Every weakly fair execution of @main terminates and every argument array ends as launched. -/
theorem frame (hb2 : ∀ V c, BodyObligation (dat2 (F := F) V c) (defs₀ (F := F)) Variants.none () Set.univ)
    (hin2 : ∀ V c, (Pipeline.ΦA spec2 c : sProp 𝕄) ⊢ (dat2 (F := F) V c).Φ 0)
    (hout2 : ∀ V c, (dat2 (F := F) V c).Φ (Fin.last cfg2.N) ⊢ (Pipeline.ΦA spec2 c : sProp 𝕄))
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () Variants.none L₀ lv₀ (fun _ _ => rfl) ρ (outs m) (pdats m) (fun _ => 0) (fun _ => BI.emp)
    (initOf (Pipeline.cells cfgs cellOf_inj) (Pipeline.launchToks cfgs cellOf_inj)) hu₀
    (fun _ c => Rr c) (hE0 ρ) (fun c => by iintro ⟨-, H⟩; iexact H)
    (reg0 m) (fun _ => .rfl) (fun _ => .rfl)
    (reg1 m) (fun _ => .rfl) (fun _ => .rfl)
    (reg2 m hb2 hin2 hout2) (fun _ => .rfl) (fun _ => .rfl)

end Cert.Kernel.Region

end
-- ==== Proof.K.Reg2.lean ====
/-
  The pooling region's body, point by point: the body's three runs — at the first point (the accumulators cleared,
  then updated), at a middle point (updated) and at the last point (updated, then finalised into the result block) —,
  the body's obligation to the pipeline at every point, and the invariant's two ends.
-/
import proofs.«426831_j88648124990792_1_alg».proof.Proof.Gen.Kernel.Launch
import proofs.«426831_j88648124990792_1_alg».proof.Proof.Gen.Kernel.Skeleton
import proofs.«426831_j88648124990792_1_alg».proof.Proof.Gen.Kernel.Points
import proofs.«426831_j88648124990792_1_alg».proof.Proof.K.Reg2Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 5000 rows: the structural check recurses once per coordinate of the long axis
set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, over the grid -/

/-- The body's first conditional: the grid coordinate is zero. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The body's second conditional: the grid coordinate is nineteen. -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At the first point the result window is idle and is not written back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
/-- At a middle point likewise. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At the last point the body stores the result window. -/
theorem liveAt2_5_C : ∀ t : Fin cfg2.N, ¬cond2_0 (grid2.coords t) → cond2_1 (grid2.coords t) → cfg2.idle 5 (grid2.coords t) = false := by decide +kernel

/-! ## Whole-buffer accesses -/

/-- Both coordinates of every access are zero. -/
theorem hz2 : (![0, 0] : Fin 2 → Nat) = fun _ => 0 := funext fun a => by fin_cases a <;> rfl

/-- After a store through the whole buffer, last, the buffer reads the stored value whatever was stored before. -/
theorem read_writes_cons_unit {κ : Kind} {sp : Space} {S : Shape} {e : EltTy} {off : Fin S.rank → Nat} (h : off = fun _ => 0)
    (inb : ∀ a, off a + S.size a ≤ S.size a) (v : View sig κ sp S e) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load through the whole buffer reads its contents. -/
theorem readAt_unit {κ : Kind} {sp : Space} {S : Shape} {e : EltTy} {off : Fin S.rank → Nat} (h : off = fun _ => 0)
    (inb : ∀ a, off a + S.size a ≤ S.size a) (v : View sig κ sp S e) (f : v.ty.Contents (Elt F)) :
    v.readAt (Elt F) (Rect.unit off S.size inb).toLoadRect f = v.read (Elt F) f := by
  rw [View.readAt_eq_ld, View.ld_unit_zero h]

/-! ## The body's three runs -/

set_option maxHeartbeats 1000000 in
/-- At the first point: the accumulators, found at anything, are cleared and then updated by the tile; the idle result buffer comes back untouched. -/
theorem sound_kernel2_A (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S5000x1 .i32) (harg3 : arg3.IsWhole)
    (arg4 : Memref sig .tc .vmem S128x10 .f32) (harg4 : arg4.IsWhole) (arg5 : Memref sig .tc .vmem S1x10 .f32) (harg5 : arg5.IsWhole)
    (arg6 : Memref sig .tc .vmem S128x10 .f32) (harg6 : arg6.IsWhole) (arg7 : Memref sig .tc .vmem S128x128 .f32) (harg7 : arg7.IsWhole)
    (arg8 : Memref sig .tc .vmem S128x128 .f32) (harg8 : arg8.IsWhole)
    (hc0 : cond2_0 i) (hc1 : ¬cond2_1 i)
    (x0 : Vec F S5000x128 .f32) (x1 : Vec F S1x128 .f32) (x2 : Vec F S5000x1 .i32) (x3 : Vec F S128x10 .f32) (x4 : Vec F S1x10 .f32)
    (xi5 : Vec F S128x10 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare xi5
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare xi5
            ∗ owns (c : Thread nD τ) arg7 fullShare (k2_pay5 x0 x1 x2 (k2_pay2 (F := F)))
            ∗ owns (c : Thread nD τ) arg8 fullShare (k2_pay6 x2 (k2_pay3 (F := F)))) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8) K := by
  simp only [cc2__pool_linear_kernel_eq_skeleton]; unfold cc2__pool_linear_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %g0, -, HS0⟩, ⟨%d7, %g1, -, HS1⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    sl_unfold_words
    rw [read_writes_cons_unit hz2]
    simp only [readAt_unit (S := S5000x128) hz2, readAt_unit (S := S1x128) hz2, readAt_unit (S := S5000x1) hz2, readAt_unit (S := S128x128) hz2, readAt_unit (S := S128x10) hz2, readAt_unit (S := S1x10) hz2, View.readCov_unit_zero (S := S128x128) _ hz2]
  iexists _; isplitr
  swap; · iexact HS1
  ipureintro
  sl_unfold_words
  rw [read_writes_cons_unit hz2]
  simp only [readAt_unit (S := S5000x128) hz2, readAt_unit (S := S1x128) hz2, readAt_unit (S := S5000x1) hz2, readAt_unit (S := S128x128) hz2, readAt_unit (S := S128x10) hz2, readAt_unit (S := S1x10) hz2, View.readCov_unit_zero (S := S128x128) _ hz2]

set_option maxHeartbeats 1000000 in
/-- At a middle point: the accumulators, found at `s0`, `s1`, are updated by the tile; the idle result buffer comes back untouched. -/
theorem sound_kernel2_B (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S5000x1 .i32) (harg3 : arg3.IsWhole)
    (arg4 : Memref sig .tc .vmem S128x10 .f32) (harg4 : arg4.IsWhole) (arg5 : Memref sig .tc .vmem S1x10 .f32) (harg5 : arg5.IsWhole)
    (arg6 : Memref sig .tc .vmem S128x10 .f32) (harg6 : arg6.IsWhole) (arg7 : Memref sig .tc .vmem S128x128 .f32) (harg7 : arg7.IsWhole)
    (arg8 : Memref sig .tc .vmem S128x128 .f32) (harg8 : arg8.IsWhole)
    (hc0 : ¬cond2_0 i) (hc1 : ¬cond2_1 i)
    (x0 : Vec F S5000x128 .f32) (x1 : Vec F S1x128 .f32) (x2 : Vec F S5000x1 .i32) (x3 : Vec F S128x10 .f32) (x4 : Vec F S1x10 .f32)
    (xi5 : Vec F S128x10 .f32) (s0 s1 : Vec F S128x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare xi5
        ∗ owns (c : Thread nD τ) arg7 fullShare s0
        ∗ owns (c : Thread nD τ) arg8 fullShare s1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare xi5
            ∗ owns (c : Thread nD τ) arg7 fullShare (k2_pay5 x0 x1 x2 s0)
            ∗ owns (c : Thread nD τ) arg8 fullShare (k2_pay6 x2 s1)) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8) K := by
  simp only [cc2__pool_linear_kernel_eq_skeleton]; unfold cc2__pool_linear_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, HS0⟩, ⟨%g1, %hg1, HS1⟩, Hk⟩
  subst hf0; subst hf1; subst hf2; subst hf3; subst hf4; subst hf5; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    sl_unfold_words
    rw [read_writes_cons_unit hz2]
    simp only [readAt_unit (S := S5000x128) hz2, readAt_unit (S := S1x128) hz2, readAt_unit (S := S5000x1) hz2, readAt_unit (S := S128x128) hz2, readAt_unit (S := S128x10) hz2, readAt_unit (S := S1x10) hz2]
  iexists _; isplitr
  swap; · iexact HS1
  ipureintro
  sl_unfold_words
  rw [read_writes_cons_unit hz2]
  simp only [readAt_unit (S := S5000x128) hz2, readAt_unit (S := S1x128) hz2, readAt_unit (S := S5000x1) hz2, readAt_unit (S := S128x128) hz2, readAt_unit (S := S128x10) hz2, readAt_unit (S := S1x10) hz2]

set_option maxHeartbeats 1000000 in
/-- At the last point: the accumulators are updated by the tile and then finalised into the result buffer, found at anything. -/
theorem sound_kernel2_C (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S5000x1 .i32) (harg3 : arg3.IsWhole)
    (arg4 : Memref sig .tc .vmem S128x10 .f32) (harg4 : arg4.IsWhole) (arg5 : Memref sig .tc .vmem S1x10 .f32) (harg5 : arg5.IsWhole)
    (arg6 : Memref sig .tc .vmem S128x10 .f32) (harg6 : arg6.IsWhole) (arg7 : Memref sig .tc .vmem S128x128 .f32) (harg7 : arg7.IsWhole)
    (arg8 : Memref sig .tc .vmem S128x128 .f32) (harg8 : arg8.IsWhole)
    (hc0 : ¬cond2_0 i) (hc1 : cond2_1 i)
    (x0 : Vec F S5000x128 .f32) (x1 : Vec F S1x128 .f32) (x2 : Vec F S5000x1 .i32) (x3 : Vec F S128x10 .f32) (x4 : Vec F S1x10 .f32)
    (s0 s1 : Vec F S128x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare s0
        ∗ owns (c : Thread nD τ) arg8 fullShare s1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k2_pay1 (k2_pay5 x0 x1 x2 s0) (k2_pay6 x2 s1) x3 x4)
            ∗ owns (c : Thread nD τ) arg7 fullShare (k2_pay5 x0 x1 x2 s0)
            ∗ owns (c : Thread nD τ) arg8 fullShare (k2_pay6 x2 s1)) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8) K := by
  simp only [cc2__pool_linear_kernel_eq_skeleton]; unfold cc2__pool_linear_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, Hk⟩
  subst hf0; subst hf1; subst hf2; subst hf3; subst hf4; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_cons_unit hz2]
    simp only [readAt_unit (S := S5000x128) hz2, readAt_unit (S := S1x128) hz2, readAt_unit (S := S5000x1) hz2, readAt_unit (S := S128x128) hz2, readAt_unit (S := S128x10) hz2, readAt_unit (S := S1x10) hz2, View.readCov_unit_zero (S := S128x128) _ hz2]
  isplitl [HS0]
  · iexists _; isplitr
    swap; · iexact HS0
    ipureintro
    sl_unfold_words
    rw [read_writes_cons_unit hz2]
    simp only [readAt_unit (S := S5000x128) hz2, readAt_unit (S := S1x128) hz2, readAt_unit (S := S5000x1) hz2, readAt_unit (S := S128x128) hz2, readAt_unit (S := S128x10) hz2, readAt_unit (S := S1x10) hz2]
  iexists _; isplitr
  swap; · iexact HS1
  ipureintro
  sl_unfold_words
  rw [read_writes_cons_unit hz2]
  simp only [readAt_unit (S := S5000x128) hz2, readAt_unit (S := S1x128) hz2, readAt_unit (S := S5000x1) hz2, readAt_unit (S := S128x128) hz2, readAt_unit (S := S128x10) hz2, readAt_unit (S := S1x10) hz2]

/-! ## The inputs' staging buffers hold their blocks -/

/-- The feature tile's staging buffer holds the tile at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

/-- The bias row's staging buffer holds the row at every point: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

/-- The graph ids' staging buffer holds the tile's ids at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

/-- The output weights' staging buffer holds them at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

/-- The output bias's staging buffer holds it at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

/-! ## The accumulators, point by point -/

/-- After the first point: the update of the cleared accumulators. -/
theorem acc2_first (c : Dev nD) (t : Fin cfg2.N) (hz : t.val = 0) :
    acc2 V c t.val t.isLt = (k2_pay5 (iblk2 V c 0 t) (iblk2 V c 1 t) (iblk2 V c 2 t) (k2_pay2 (F := F)), k2_pay6 (iblk2 V c 2 t) (k2_pay3 (F := F))) := by
  obtain ⟨n, hn⟩ := t
  cases n with
  | zero => rfl
  | succ n => exact absurd hz (Nat.succ_ne_zero n)

/-- After a later point: the update of what the point before left. -/
theorem acc2_later (c : Dev nD) (t : Fin cfg2.N) (hz : t.val ≠ 0) :
    acc2 V c t.val t.isLt = (k2_pay5 (iblk2 V c 0 t) (iblk2 V c 1 t) (iblk2 V c 2 t) (acc2 V c (t.val - 1) (Nat.lt_of_le_of_lt (Nat.sub_le _ _) t.isLt)).1,
      k2_pay6 (iblk2 V c 2 t) (acc2 V c (t.val - 1) (Nat.lt_of_le_of_lt (Nat.sub_le _ _) t.isLt)).2) := by
  obtain ⟨n, hn⟩ := t
  cases n with
  | zero => exact absurd rfl hz
  | succ n => rfl

/-! ## The launch's invariant, opened at the two accumulators -/

/-- What the launch hands the region holds the two scratch buffers at some contents, beside what gives it back once
    they return at any contents. -/
theorem PhiA2_open (c : Dev nD) :
    (Pipeline.ΦA spec2 c : sProp 𝕄) ⊢ iprop((∃ d, owns (c : Thread nD τ) scM2_0 fullShare d) ∗ (∃ d, owns (c : Thread nD τ) scM2_1 fullShare d)
      ∗ (iprop((∃ d, owns (c : Thread nD τ) scM2_0 fullShare d) ∗ (∃ d, owns (c : Thread nD τ) scM2_1 fullShare d)) -∗ Pipeline.ΦA spec2 c)) := by
  unfold Pipeline.ΦA; rw [scopedRest2_eq]; simp only [scM2_0, scM2_1, owns_whole]
  iintro ⟨⟨R0, R1, R2, R3, R4, R5, R6, R7, R8, R9, R10, S0, S1⟩, Hg⟩
  isplitl [S0]; · iexact S0
  isplitl [S1]; · iexact S1
  iintro ⟨S0, S1⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [S0]; · iexact S0
    iexact S1
  iexact Hg

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 4000000 in
/-- The body at any point. The inputs' memrefs hold their blocks. At the first point the launch's invariant opens at the
    two scratch buffers, which the body clears and updates; at a later point the invariant holds them at what the point
    before left, and the body updates them; at the last point it also stores the result block. Everywhere else the
    result window is idle and its buffer comes back as found. The rest of the launch's invariant and the core's dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  have hN : t.val < 20 := lt_of_lt_of_eq t.isLt (show cfg2.N = 20 from N_2)
  by_cases h0 : t.val % 20 = 0
  · have hz : t.val = 0 := by omega
    have h1 : ¬t.val % 20 = 19 := by omega
    rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
    rw [acc2_first V c t hz]
    rw [PhiS2_castSucc V c t, PhiS2_zero V c _ _ hz]
    iintro ⟨HΦ, Ho, ⟨%d0, H0⟩, ⟨%d1, H1⟩, ⟨%d2, H2⟩, ⟨%d3, H3⟩, ⟨%d4, H4⟩, ⟨%d5, H5⟩⟩
    ihave HΦ' := (PhiA2_open (F := F) c) $$ HΦ
    icases HΦ' with ⟨HS0, HS1, Hw⟩
    iapply (sound_kernel2_A c Set.univ (grid2.coords t) _ _ _ _ _ _ _ _ _ _ _ _ _ _ _ _ ((hcond2_0 t).mpr h0) (fun h => h1 ((hcond2_1 t).mp h))
      (iblk2 V c 0 t) (iblk2 V c 1 t) (iblk2 V c 2 t) (iblk2 V c 3 t) (iblk2 V c 4 t) ((dat2 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hw]
    · isplitl [HS0]; · iexact HS0
      isplitl [HS1]; · iexact HS1
      iexact Hw
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    rw [acc2_later V c t hz]
    rw [PhiS2_castSucc V c t, PhiS2_pos V c _ _ hz]
    by_cases h1 : t.val % 20 = 19
    · rw [show (dat2 V c).leavesExact 5 t = owns (c : Thread nD τ) (st2_5 t) fullShare ((dat2 V c).after 5 t) from by
        unfold Dat.leavesExact; rw [liveAt2_5_C t (fun h => h0 ((hcond2_0 t).mp h)) ((hcond2_1 t).mpr h1)], after2_5]
      unfold out2_5
      rw [acc2_later V c t hz]
      iintro ⟨⟨HS0, HS1, Hw⟩, Ho, ⟨%d0, H0⟩, ⟨%d1, H1⟩, ⟨%d2, H2⟩, ⟨%d3, H3⟩, ⟨%d4, H4⟩, ⟨%d5, H5⟩⟩
      iapply (sound_kernel2_C c Set.univ (grid2.coords t) _ _ _ _ _ _ _ _ _ _ _ _ _ _ _ _ (fun h => h0 ((hcond2_0 t).mp h)) ((hcond2_1 t).mpr h1)
        (iblk2 V c 0 t) (iblk2 V c 1 t) (iblk2 V c 2 t) (iblk2 V c 3 t) (iblk2 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hw]
      · isplitl [HS0]; · iexact HS0
        isplitl [HS1]; · iexact HS1
        iexact Hw
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      iintro ⟨⟨HS0, HS1, Hw⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) (iblk2 V c 4 t) ((dat2 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hw]
      · isplitl [HS0]; · iexact HS0
        isplitl [HS1]; · iexact HS1
        iexact Hw
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: the accumulators' contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨HS0, HS1, Hw⟩
  iapply Hw
  isplitl [HS0]
  · iexists _; iexact HS0
  iexists _; iexact HS1

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.Kernel.Region

end
-- ==== Proof.KI.Reg0.lean ====
/-
  The first dense transform, one row tile at a time: at grid point `t` the body reads rows `[5000 t, 5000 (t+1))`
  of the node features and the whole weight matrix, and writes their product into the same rows of the result.
  Here: each window's block at a point, what the body leaves in the result window's buffer (its one store, over the
  two blocks it read), the body's triple, and the pipeline's proof data with its obligation at every point — for any
  float family and any contents `V` of the arrays when the region is entered.
-/
import proofs.«426831_j88648124990792_1_alg».proof.Proof.Gen.KernelIdeal.Launch
import proofs.«426831_j88648124990792_1_alg».proof.Proof.Gen.KernelIdeal.Skeleton
import proofs.«426831_j88648124990792_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the matrix at every point: fetched once, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rTile : Rect S5000x128 := Rect.unit (s := S5000x128) ![0, 0] S5000x128.size inb_S5000x128_S5000x128_0_0
abbrev rW : Rect S128x128 := Rect.unit (s := S128x128) ![0, 0] S128x128.size inb_S128x128_S128x128_0_0

/-- The result window's buffer after the body: its one store, the product of the tile and the matrix it read. -/
def out0_2 (x0 : Vec F S5000x128 .f32) (x1 : Vec F S128x128 .f32) : Vec F S5000x128 .f32 :=
  View.canon [⟨rTile, k0_pay1 (View.ld x0 rTile) (View.ld x1 rW)⟩]

/-- That store covers the buffer. -/
theorem cover0_2 (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

/-! ## The body's triple -/

set_option maxHeartbeats 1000000 in
/-- On whole staging memrefs, the inputs' at contents `x0`, `x1` and the result's at anything, the body runs to the
    continuation with the inputs' as they were and the result's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core `c`: the arrays as the region finds them; after the body each input's buffer
    at its block and the result's at `out0_2` of the two blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Region

end
-- ==== Proof.KI.Reg1.lean ====
/-
  The second dense transform, fused with the first layer's bias and rectifier: at grid point `t` the body reads
  rows `[5000 t, 5000 (t+1))` of the aggregated features, the bias row and the whole weight matrix, and writes
  `max (tile + bias, 0) · W` into the same rows of the result.
  Here: each window's block at a point, what the body leaves in the result window's buffer, the body's triple, and
  the pipeline's proof data with its obligation at every point — for any float family and any contents `V` of the
  arrays when the region is entered.
-/
import proofs.«426831_j88648124990792_1_alg».proof.Proof.Gen.KernelIdeal.Launch
import proofs.«426831_j88648124990792_1_alg».proof.Proof.Gen.KernelIdeal.Skeleton
import proofs.«426831_j88648124990792_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds the tile at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point: fetched once, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's staging buffer holds the matrix at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rTile1 : Rect S5000x128 := Rect.unit (s := S5000x128) ![0, 0] S5000x128.size inb_S5000x128_S5000x128_0_0
abbrev rBias1 : Rect S1x128 := Rect.unit (s := S1x128) ![0, 0] S1x128.size inb_S1x128_S1x128_0_0
abbrev rW1 : Rect S128x128 := Rect.unit (s := S128x128) ![0, 0] S128x128.size inb_S128x128_S128x128_0_0

/-- The result window's buffer after the body: its one store, over the tile, the bias row and the matrix it read. -/
def out1_3 (x0 : Vec F S5000x128 .f32) (x1 : Vec F S1x128 .f32) (x2 : Vec F S128x128 .f32) : Vec F S5000x128 .f32 :=
  View.canon [⟨rTile1, k1_pay1 (View.ld x0 rTile1) (View.ld x1 rBias1) (View.ld x2 rW1)⟩]

/-- That store covers the buffer. -/
theorem cover1_3 (p0 : Vec F S5000x128 .f32) (y : S5000x128.Idx) :
    ∃ pc ∈ ([⟨rTile1, p0⟩] : List (View.Piece (Elt F) S5000x128 .f32)), y ∈ pc.1.set :=
  View.cover_of_tiled [⟨rTile1, p0⟩] S5000x128.size (by rfl) y

/-! ## The body's triple -/

set_option maxHeartbeats 1000000 in
/-- On whole staging memrefs, the inputs' at contents `x0`, `x1`, `x2` and the result's at anything, the body runs to
    the continuation with the inputs' as they were and the result's at `out1_3 x0 x1 x2`. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Pipeline 1's proof data on core `c`: the arrays as the region finds them; after the body each input's buffer
    at its block and the result's at `out1_3` of the three blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Region

end
-- ==== Proof.KI.Reg2Data.lean ====
/-
  The pooling region: at grid point `t` the body reads rows `[5000 t, 5000 (t+1))` of the aggregated features and
  of the graph ids, the bias row, and keeps two 128 × 128 accumulators in scratch memory across the 20 points — the
  per-graph sums of the rectified rows and the per-graph node counts, both as products with the one-hot matrix of the
  ids. The first point clears them before adding; the last point divides, multiplies by the output weights, adds the
  output bias and stores the 128 × 10 result, which is written back once, after that point.
  Here: the windows' blocks, the accumulators after each point as a recursion over the body's stored values, the
  result block, the invariant that carries the accumulators between points, and the pipeline's proof data — for any
  float family and any contents `V` of the arrays when the region is entered.
-/
import proofs.«426831_j88648124990792_1_alg».proof.Proof.Gen.KernelIdeal.Launch
import proofs.«426831_j88648124990792_1_alg».proof.Proof.Gen.KernelIdeal.Skeleton
import proofs.«426831_j88648124990792_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulators and the result block -/

/-- The two scratch operands, whole scoped buffers of the kernel's own. -/
abbrev scM2_0 : Memref sig .tc .vmem S128x128 .f32 := Memref.whole cc2_scratch0
abbrev scM2_1 : Memref sig .tc .vmem S128x128 .f32 := Memref.whole cc2_scratch1

/-- The sums accumulator and the counts accumulator after the body at point `n`: at the first point the update of
    the cleared accumulators, afterwards the update of what the point before left. -/
def acc2 (c : Dev nD) : (n : ℕ) → n < cfg2.N → Vec F S128x128 .f32 × Vec F S128x128 .f32
  | 0, h => (k2_pay5 (iblk2 V c 0 ⟨0, h⟩) (iblk2 V c 1 ⟨0, h⟩) (iblk2 V c 2 ⟨0, h⟩) (k2_pay2 (F := F)),
      k2_pay6 (iblk2 V c 2 ⟨0, h⟩) (k2_pay3 (F := F)))
  | n + 1, h => (k2_pay5 (iblk2 V c 0 ⟨n + 1, h⟩) (iblk2 V c 1 ⟨n + 1, h⟩) (iblk2 V c 2 ⟨n + 1, h⟩) (acc2 c n (Nat.lt_of_succ_lt h)).1,
      k2_pay6 (iblk2 V c 2 ⟨n + 1, h⟩) (acc2 c n (Nat.lt_of_succ_lt h)).2)

theorem acc2_zero (c : Dev nD) (h : 0 < cfg2.N) :
    acc2 V c 0 h = (k2_pay5 (iblk2 V c 0 ⟨0, h⟩) (iblk2 V c 1 ⟨0, h⟩) (iblk2 V c 2 ⟨0, h⟩) (k2_pay2 (F := F)),
      k2_pay6 (iblk2 V c 2 ⟨0, h⟩) (k2_pay3 (F := F))) := rfl

theorem acc2_succ (c : Dev nD) (n : ℕ) (h : n + 1 < cfg2.N) :
    acc2 V c (n + 1) h = (k2_pay5 (iblk2 V c 0 ⟨n + 1, h⟩) (iblk2 V c 1 ⟨n + 1, h⟩) (iblk2 V c 2 ⟨n + 1, h⟩) (acc2 V c n (Nat.lt_of_succ_lt h)).1,
      k2_pay6 (iblk2 V c 2 ⟨n + 1, h⟩) (acc2 V c n (Nat.lt_of_succ_lt h)).2) := rfl

/-- The result window's buffer after the body at a point that stores it (the last): the finalisation of the
    accumulators as that point leaves them. At the other points the window is idle and this value is not consulted. -/
def out2_5 (c : Dev nD) (t : Fin cfg2.N) : Vec F S128x10 .f32 :=
  k2_pay1 (acc2 V c t.val t.isLt).1 (acc2 V c t.val t.isLt).2 (iblk2 V c 3 t) (iblk2 V c 4 t)

/-! ## The invariant between points -/

local notation "𝕋" => fun (c : Dev nD) => (c : Thread nD τ)

/-- Before the first point, the scoped rest and the generator register as the launch hands them over; before point
    `n + 1`, the two accumulators at what point `n` left, beside what gives the launch's invariant back once the two
    scratch buffers return at any contents. -/
def PhiS2 (c : Dev nD) : (n : ℕ) → n ≤ cfg2.N → sProp 𝕄
  | 0, _ => Pipeline.ΦA spec2 c
  | n + 1, hn => iprop(owns (c : Thread nD τ) scM2_0 fullShare (acc2 V c n hn).1 ∗ owns (c : Thread nD τ) scM2_1 fullShare (acc2 V c n hn).2
      ∗ (iprop((∃ d, owns (c : Thread nD τ) scM2_0 fullShare d) ∗ (∃ d, owns (c : Thread nD τ) scM2_1 fullShare d)) -∗ Pipeline.ΦA spec2 c))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (acc2 V c n hn).1 ∗ owns (c : Thread nD τ) scM2_1 fullShare (acc2 V c n hn).2
      ∗ (iprop((∃ d, owns (c : Thread nD τ) scM2_0 fullShare d) ∗ (∃ d, owns (c : Thread nD τ) scM2_1 fullShare d)) -∗ Pipeline.ΦA spec2 c)) := rfl

theorem PhiS2_pos (c : Dev nD) (n : ℕ) (h : n ≤ cfg2.N) (hz : n ≠ 0) :
    PhiS2 V c n h = iprop(owns (c : Thread nD τ) scM2_0 fullShare (acc2 V c (n - 1) (by omega)).1 ∗ owns (c : Thread nD τ) scM2_1 fullShare (acc2 V c (n - 1) (by omega)).2
      ∗ (iprop((∃ d, owns (c : Thread nD τ) scM2_0 fullShare d) ∗ (∃ d, owns (c : Thread nD τ) scM2_1 fullShare d)) -∗ Pipeline.ΦA spec2 c)) := by
  cases n with
  | zero => exact absurd rfl hz
  | succ n => rfl

/-! ## The pipeline's proof data -/

/-- Pipeline 2's proof data on core `c`: the arrays as the region finds them; after the body each input's buffer at
    its block and the result's at `out2_5`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]

end Cert.KernelIdeal.Region

end
-- ==== Proof.KI.Frame.lean ====
/-
  The whole run of the kernel program: what the unscoped buffers hold between @main's items (each host stretch
  applied to what was there; each region's result array at what its write-backs leave), the three pipelines' proof
  data each at its region's entry contents, the three regions as segments of @main, and the frame: every weakly fair
  execution terminates and every argument array ends as launched. Region 2's body obligation and the two facts about
  its invariant are taken as hypotheses here and supplied where the claim is assembled.
-/
import proofs.«426831_j88648124990792_1_alg».proof.Proof.Gen.KernelIdeal.Regions
import proofs.«426831_j88648124990792_1_alg».proof.Proof.KI.Reg0
import proofs.«426831_j88648124990792_1_alg».proof.Proof.KI.Reg1
import proofs.«426831_j88648124990792_1_alg».proof.Proof.KI.Reg2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Region 0's entry contents, read at the TensorCore's references. -/
abbrev En3 : (c : Dev nD) → (b : Ref sig .tc) → Buf (Elt F) ((c : Thread nD τ).loc b) := fun c b => V3 m c b
/-- After region 0: its arrays at what the pipeline leaves, every other buffer as entered. -/
def W4 (c : Dev nD) : Valuation τ sig (Elt F) :=
  Pipeline.withArrays spec0 c (V3 m c) fun w => (dat0 (En3 m) c).arrAt w cfg0.N
theorem W4_arr (c : Dev nD) (w : Fin cfg0.W) :
    W4 m c (Proc.devRef .tc (Pipeline.arrRef spec0 w)) = (dat0 (En3 m) c).arrAt w cfg0.N := by
  unfold W4; exact Pipeline.withArrays_arr spec0 launch0.win.arr_inj c _ _ w
/-- The same as an update of the one array the region may change. -/
abbrev U4 (c : Dev nD) : Valuation τ sig (Elt F) := Function.update (V3 m c) main_v30 (W4 m c main_v30)
abbrev U5 (c : Dev nD) : Valuation τ sig (Elt F) := StableHlo.after hostOps1 (U4 m c)
abbrev En5 : (c : Dev nD) → (b : Ref sig .tc) → Buf (Elt F) ((c : Thread nD τ).loc b) := fun c b => U5 m c b
def W6 (c : Dev nD) : Valuation τ sig (Elt F) :=
  Pipeline.withArrays spec1 c (U5 m c) fun w => (dat1 (En5 m) c).arrAt w cfg1.N
theorem W6_arr (c : Dev nD) (w : Fin cfg1.W) :
    W6 m c (Proc.devRef .tc (Pipeline.arrRef spec1 w)) = (dat1 (En5 m) c).arrAt w cfg1.N := by
  unfold W6; exact Pipeline.withArrays_arr spec1 launch1.win.arr_inj c _ _ w
abbrev U6 (c : Dev nD) : Valuation τ sig (Elt F) := Function.update (U5 m c) main_v45 (W6 m c main_v45)
abbrev U7 (c : Dev nD) : Valuation τ sig (Elt F) := StableHlo.after hostOps2 (U6 m c)
abbrev En7 : (c : Dev nD) → (b : Ref sig .tc) → Buf (Elt F) ((c : Thread nD τ).loc b) := fun c b => U7 m c b
def W8 (c : Dev nD) : Valuation τ sig (Elt F) :=
  Pipeline.withArrays spec2 c (U7 m c) fun w => (dat2 (En7 m) c).arrAt w cfg2.N
theorem W8_arr (c : Dev nD) (w : Fin cfg2.W) :
    W8 m c (Proc.devRef .tc (Pipeline.arrRef spec2 w)) = (dat2 (En7 m) c).arrAt w cfg2.N := by
  unfold W8; exact Pipeline.withArrays_arr spec2 launch2.win.arr_inj c _ _ w
abbrev U8 (c : Dev nD) : Valuation τ sig (Elt F) := Function.update (U7 m c) main_v62 (W8 m c main_v62)

/-- What the regions leave in the arrays they may change. -/
def outs : Outs (F := F) := fun J r c => match J with
  | 4 => W4 m c r
  | 6 => W6 m c r
  | _ => W8 m c r

theorem V4_eq (c : Dev nD) : V4 m (outs m) c = U4 m c := rfl
theorem V5_eq (c : Dev nD) : V5 m (outs m) c = U5 m c := rfl
theorem V6_eq (c : Dev nD) : V6 m (outs m) c = U6 m c := rfl
theorem V7_eq (c : Dev nD) : V7 m (outs m) c = U7 m c := rfl
theorem V8_eq (c : Dev nD) : V8 m (outs m) c = U8 m c := rfl

theorem U4_of_ne (c : Dev nD) (b : Ref sig .tc) (h : b ≠ main_v30) : U4 m c b = V3 m c b :=
  Function.update_of_ne (StableHlo.devRef_ne_of_ne h : (Proc.devRef .tc b : DevRef τ sig) ≠ Proc.devRef .tc main_v30) _ _
theorem U6_of_ne (c : Dev nD) (b : Ref sig .tc) (h : b ≠ main_v45) : U6 m c b = U5 m c b :=
  Function.update_of_ne (StableHlo.devRef_ne_of_ne h : (Proc.devRef .tc b : DevRef τ sig) ≠ Proc.devRef .tc main_v45) _ _
theorem U8_of_ne (c : Dev nD) (b : Ref sig .tc) (h : b ≠ main_v62) : U8 m c b = U7 m c b :=
  Function.update_of_ne (StableHlo.devRef_ne_of_ne h : (Proc.devRef .tc b : DevRef τ sig) ≠ Proc.devRef .tc main_v62) _ _
theorem U4_self (c : Dev nD) : U4 m c main_v30 = W4 m c main_v30 := Function.update_self _ _ _
theorem U6_self (c : Dev nD) : U6 m c main_v45 = W6 m c main_v45 := Function.update_self _ _ _
theorem U8_self (c : Dev nD) : U8 m c main_v62 = W8 m c main_v62 := Function.update_self _ _ _

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (En3 m) c
  | ⟨1, _⟩ => fun c => dat1 (En5 m) c
  | ⟨2, _⟩ => fun c => dat2 (En7 m) c

/-- No core owes another anything: no level is assigned. -/
abbrev L₀ : GSem nD τ sig → Finset Unit := fun _ => ∅
abbrev lv₀ : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = (fun b : Ref sig .tc => U4 m c b) (Pipeline.arrRef spec0 w) := by
  match w with
  | ⟨0, _⟩ => exact (((dat0 (En3 m) c).arrAt_in 0 rfl _).trans (A_eq0 (En3 m) c 0)).trans (U4_of_ne m c _ (by decide)).symm
  | ⟨1, _⟩ => exact (((dat0 (En3 m) c).arrAt_in 1 rfl _).trans (A_eq0 (En3 m) c 1)).trans (U4_of_ne m c _ (by decide)).symm
  | ⟨2, _⟩ => exact ((W4_arr m c 2).symm.trans (U4_self m c).symm)
theorem hrest0 (c : Dev nD) : ∀ b, b ∉ Finset.univ.image (Pipeline.arrRef spec0) → (fun b : Ref sig .tc => U4 m c b) b = En3 m c b :=
  fun b hb => U4_of_ne m c b fun e => hb (Finset.mem_image.mpr ⟨2, Finset.mem_univ _, e.symm⟩)

set_option maxHeartbeats 1000000 in
theorem hF1 (c : Dev nD) (w : Fin cfg1.W) : (pdats m 1 c).arrAt w cfg1.N = (fun b : Ref sig .tc => U6 m c b) (Pipeline.arrRef spec1 w) := by
  match w with
  | ⟨0, _⟩ => exact (((dat1 (En5 m) c).arrAt_in 0 rfl _).trans (A_eq1 (En5 m) c 0)).trans (U6_of_ne m c _ (by decide)).symm
  | ⟨1, _⟩ => exact (((dat1 (En5 m) c).arrAt_in 1 rfl _).trans (A_eq1 (En5 m) c 1)).trans (U6_of_ne m c _ (by decide)).symm
  | ⟨2, _⟩ => exact (((dat1 (En5 m) c).arrAt_in 2 rfl _).trans (A_eq1 (En5 m) c 2)).trans (U6_of_ne m c _ (by decide)).symm
  | ⟨3, _⟩ => exact ((W6_arr m c 3).symm.trans (U6_self m c).symm)
theorem hrest1 (c : Dev nD) : ∀ b, b ∉ Finset.univ.image (Pipeline.arrRef spec1) → (fun b : Ref sig .tc => U6 m c b) b = En5 m c b :=
  fun b hb => U6_of_ne m c b fun e => hb (Finset.mem_image.mpr ⟨3, Finset.mem_univ _, e.symm⟩)

set_option maxHeartbeats 2000000 in
theorem hF2 (c : Dev nD) (w : Fin cfg2.W) : (pdats m 2 c).arrAt w cfg2.N = (fun b : Ref sig .tc => U8 m c b) (Pipeline.arrRef spec2 w) := by
  match w with
  | ⟨0, _⟩ => exact (((dat2 (En7 m) c).arrAt_in 0 rfl _).trans (A_eq2 (En7 m) c 0)).trans (U8_of_ne m c _ (by decide)).symm
  | ⟨1, _⟩ => exact (((dat2 (En7 m) c).arrAt_in 1 rfl _).trans (A_eq2 (En7 m) c 1)).trans (U8_of_ne m c _ (by decide)).symm
  | ⟨2, _⟩ => exact (((dat2 (En7 m) c).arrAt_in 2 rfl _).trans (A_eq2 (En7 m) c 2)).trans (U8_of_ne m c _ (by decide)).symm
  | ⟨3, _⟩ => exact (((dat2 (En7 m) c).arrAt_in 3 rfl _).trans (A_eq2 (En7 m) c 3)).trans (U8_of_ne m c _ (by decide)).symm
  | ⟨4, _⟩ => exact (((dat2 (En7 m) c).arrAt_in 4 rfl _).trans (A_eq2 (En7 m) c 4)).trans (U8_of_ne m c _ (by decide)).symm
  | ⟨5, _⟩ => exact ((W8_arr m c 5).symm.trans (U8_self m c).symm)
theorem hrest2 (c : Dev nD) : ∀ b, b ∉ Finset.univ.image (Pipeline.arrRef spec2) → (fun b : Ref sig .tc => U8 m c b) b = En7 m c b :=
  fun b hb => U8_of_ne m c b fun e => hb (Finset.mem_image.mpr ⟨5, Finset.mem_univ _, e.symm⟩)

/-! ## The regions as segments -/

set_option backward.isDefEq.respectTransparency.types false in
/-- Region 0 over the thread state: entered from every unscoped buffer at the contents before it, left at the
    contents after it; its arrays split out of the unscoped buffers and put back at what the write-backs leave; the
    generator register into the invariant and out; nothing owed; no semaphore of the kernel's own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (En3 m) c).loose
  hwaits := Pipeline.hwaits_of_owed_zero _ _ _ _ L₀ lv₀ 0 fun _ _ => rfl
  pre c := iprop(StableHlo.held (c : Thread nD τ) (Pipeline.ucRefs τ sig) (V3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec0 c (En3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En3 m c) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at what the write-backs leave; the
    generator register into the invariant and out; nothing owed; no semaphore of the kernel's own. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (En5 m) c).loose
  hwaits := Pipeline.hwaits_of_owed_zero _ _ _ _ L₀ lv₀ 1 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec1 c (En5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En5 m c) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back at what the write-backs leave; the
    generator register into the invariant and out; nothing owed; no semaphore of the kernel's own. -/
def reg2 (hb2 : ∀ V c, BodyObligation (dat2 (F := F) V c) (defs₀ (F := F)) Variants.none () Set.univ)
    (hin2 : ∀ V c, (Pipeline.ΦA spec2 c : sProp 𝕄) ⊢ (dat2 (F := F) V c).Φ 0)
    (hout2 : ∀ V c, (dat2 (F := F) V c).Φ (Fin.last cfg2.N) ⊢ (Pipeline.ΦA spec2 c : sProp 𝕄))
    : Pipeline.RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (hb2 (En7 m) c).loose
  hwaits := Pipeline.hwaits_of_owed_zero _ _ _ _ L₀ lv₀ 2 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec2 c (En7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (En7 m) c); unfold Pipeline.ΦA
    iintro ⟨Hp, -, Hr⟩
    isplitl [Hr]; · iexact Hr
    iexact Hp
  hout c := by
    rw [Pipeline.ownSems0_none]
    refine BIBase.Entails.trans (hout2 (En7 m) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En7 m c) (fun b => U8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources -/

/-- The launch's ghost state is the pipelines' cells and tokens; nothing else is set up. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core's first rest: its generator register and its dues, at nothing. -/
theorem hE0 (ρ : Dev nD → PrngReg) :
    iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄))) ∗ levAts L₀ lv₀)
      ⊢ (|={Set.univ}=> bigSep Finset.univ (fun c : Dev nD => Rr (F := F) c) : sProp 𝕄) := by
  refine Pipeline.initEach L₀ lv₀ fun c => ?_
  iintro ⟨⟨-, HO, -, Hp, -⟩, -⟩
  imodintro
  isplitl [Hp]; · iexists _; iexact Hp
  iexists ∅; iexact HO

/-! ## The frame -/

/-- Every weakly fair execution of @main terminates and every argument array ends as launched. -/
theorem frame (hb2 : ∀ V c, BodyObligation (dat2 (F := F) V c) (defs₀ (F := F)) Variants.none () Set.univ)
    (hin2 : ∀ V c, (Pipeline.ΦA spec2 c : sProp 𝕄) ⊢ (dat2 (F := F) V c).Φ 0)
    (hout2 : ∀ V c, (dat2 (F := F) V c).Φ (Fin.last cfg2.N) ⊢ (Pipeline.ΦA spec2 c : sProp 𝕄))
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () Variants.none L₀ lv₀ (fun _ _ => rfl) ρ (outs m) (pdats m) (fun _ => 0) (fun _ => BI.emp)
    (initOf (Pipeline.cells cfgs cellOf_inj) (Pipeline.launchToks cfgs cellOf_inj)) hu₀
    (fun _ c => Rr c) (hE0 ρ) (fun c => by iintro ⟨-, H⟩; iexact H)
    (reg0 m) (fun _ => .rfl) (fun _ => .rfl)
    (reg1 m) (fun _ => .rfl) (fun _ => .rfl)
    (reg2 m hb2 hin2 hout2) (fun _ => .rfl) (fun _ => .rfl)

end Cert.KernelIdeal.Region

end
-- ==== Proof.KI.Reg2.lean ====
/-
  The pooling region's body, point by point: the body's three runs — at the first point (the accumulators cleared,
  then updated), at a middle point (updated) and at the last point (updated, then finalised into the result block) —,
  the body's obligation to the pipeline at every point, and the invariant's two ends.
-/
import proofs.«426831_j88648124990792_1_alg».proof.Proof.Gen.KernelIdeal.Launch
import proofs.«426831_j88648124990792_1_alg».proof.Proof.Gen.KernelIdeal.Skeleton
import proofs.«426831_j88648124990792_1_alg».proof.Proof.Gen.KernelIdeal.Points
import proofs.«426831_j88648124990792_1_alg».proof.Proof.KI.Reg2Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 5000 rows: the structural check recurses once per coordinate of the long axis
set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, over the grid -/

/-- The body's first conditional: the grid coordinate is zero. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The body's second conditional: the grid coordinate is nineteen. -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At the first point the result window is idle and is not written back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
/-- At a middle point likewise. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At the last point the body stores the result window. -/
theorem liveAt2_5_C : ∀ t : Fin cfg2.N, ¬cond2_0 (grid2.coords t) → cond2_1 (grid2.coords t) → cfg2.idle 5 (grid2.coords t) = false := by decide +kernel

/-! ## Whole-buffer accesses -/

/-- Both coordinates of every access are zero. -/
theorem hz2 : (![0, 0] : Fin 2 → Nat) = fun _ => 0 := funext fun a => by fin_cases a <;> rfl

/-- After a store through the whole buffer, last, the buffer reads the stored value whatever was stored before. -/
theorem read_writes_cons_unit {κ : Kind} {sp : Space} {S : Shape} {e : EltTy} {off : Fin S.rank → Nat} (h : off = fun _ => 0)
    (inb : ∀ a, off a + S.size a ≤ S.size a) (v : View sig κ sp S e) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load through the whole buffer reads its contents. -/
theorem readAt_unit {κ : Kind} {sp : Space} {S : Shape} {e : EltTy} {off : Fin S.rank → Nat} (h : off = fun _ => 0)
    (inb : ∀ a, off a + S.size a ≤ S.size a) (v : View sig κ sp S e) (f : v.ty.Contents (Elt F)) :
    v.readAt (Elt F) (Rect.unit off S.size inb).toLoadRect f = v.read (Elt F) f := by
  rw [View.readAt_eq_ld, View.ld_unit_zero h]

/-! ## The body's three runs -/

set_option maxHeartbeats 1000000 in
/-- At the first point: the accumulators, found at anything, are cleared and then updated by the tile; the idle result buffer comes back untouched. -/
theorem sound_kernel2_A (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S5000x1 .i32) (harg3 : arg3.IsWhole)
    (arg4 : Memref sig .tc .vmem S128x10 .f32) (harg4 : arg4.IsWhole) (arg5 : Memref sig .tc .vmem S1x10 .f32) (harg5 : arg5.IsWhole)
    (arg6 : Memref sig .tc .vmem S128x10 .f32) (harg6 : arg6.IsWhole) (arg7 : Memref sig .tc .vmem S128x128 .f32) (harg7 : arg7.IsWhole)
    (arg8 : Memref sig .tc .vmem S128x128 .f32) (harg8 : arg8.IsWhole)
    (hc0 : cond2_0 i) (hc1 : ¬cond2_1 i)
    (x0 : Vec F S5000x128 .f32) (x1 : Vec F S1x128 .f32) (x2 : Vec F S5000x1 .i32) (x3 : Vec F S128x10 .f32) (x4 : Vec F S1x10 .f32)
    (xi5 : Vec F S128x10 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare xi5
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare xi5
            ∗ owns (c : Thread nD τ) arg7 fullShare (k2_pay5 x0 x1 x2 (k2_pay2 (F := F)))
            ∗ owns (c : Thread nD τ) arg8 fullShare (k2_pay6 x2 (k2_pay3 (F := F)))) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8) K := by
  simp only [cc2__pool_linear_kernel_eq_skeleton]; unfold cc2__pool_linear_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %g0, -, HS0⟩, ⟨%d7, %g1, -, HS1⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    sl_unfold_words
    rw [read_writes_cons_unit hz2]
    simp only [readAt_unit (S := S5000x128) hz2, readAt_unit (S := S1x128) hz2, readAt_unit (S := S5000x1) hz2, readAt_unit (S := S128x128) hz2, readAt_unit (S := S128x10) hz2, readAt_unit (S := S1x10) hz2, View.readCov_unit_zero (S := S128x128) _ hz2]
  iexists _; isplitr
  swap; · iexact HS1
  ipureintro
  sl_unfold_words
  rw [read_writes_cons_unit hz2]
  simp only [readAt_unit (S := S5000x128) hz2, readAt_unit (S := S1x128) hz2, readAt_unit (S := S5000x1) hz2, readAt_unit (S := S128x128) hz2, readAt_unit (S := S128x10) hz2, readAt_unit (S := S1x10) hz2, View.readCov_unit_zero (S := S128x128) _ hz2]

set_option maxHeartbeats 1000000 in
/-- At a middle point: the accumulators, found at `s0`, `s1`, are updated by the tile; the idle result buffer comes back untouched. -/
theorem sound_kernel2_B (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S5000x1 .i32) (harg3 : arg3.IsWhole)
    (arg4 : Memref sig .tc .vmem S128x10 .f32) (harg4 : arg4.IsWhole) (arg5 : Memref sig .tc .vmem S1x10 .f32) (harg5 : arg5.IsWhole)
    (arg6 : Memref sig .tc .vmem S128x10 .f32) (harg6 : arg6.IsWhole) (arg7 : Memref sig .tc .vmem S128x128 .f32) (harg7 : arg7.IsWhole)
    (arg8 : Memref sig .tc .vmem S128x128 .f32) (harg8 : arg8.IsWhole)
    (hc0 : ¬cond2_0 i) (hc1 : ¬cond2_1 i)
    (x0 : Vec F S5000x128 .f32) (x1 : Vec F S1x128 .f32) (x2 : Vec F S5000x1 .i32) (x3 : Vec F S128x10 .f32) (x4 : Vec F S1x10 .f32)
    (xi5 : Vec F S128x10 .f32) (s0 s1 : Vec F S128x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare xi5
        ∗ owns (c : Thread nD τ) arg7 fullShare s0
        ∗ owns (c : Thread nD τ) arg8 fullShare s1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare xi5
            ∗ owns (c : Thread nD τ) arg7 fullShare (k2_pay5 x0 x1 x2 s0)
            ∗ owns (c : Thread nD τ) arg8 fullShare (k2_pay6 x2 s1)) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8) K := by
  simp only [cc2__pool_linear_kernel_eq_skeleton]; unfold cc2__pool_linear_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, HS0⟩, ⟨%g1, %hg1, HS1⟩, Hk⟩
  subst hf0; subst hf1; subst hf2; subst hf3; subst hf4; subst hf5; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    sl_unfold_words
    rw [read_writes_cons_unit hz2]
    simp only [readAt_unit (S := S5000x128) hz2, readAt_unit (S := S1x128) hz2, readAt_unit (S := S5000x1) hz2, readAt_unit (S := S128x128) hz2, readAt_unit (S := S128x10) hz2, readAt_unit (S := S1x10) hz2]
  iexists _; isplitr
  swap; · iexact HS1
  ipureintro
  sl_unfold_words
  rw [read_writes_cons_unit hz2]
  simp only [readAt_unit (S := S5000x128) hz2, readAt_unit (S := S1x128) hz2, readAt_unit (S := S5000x1) hz2, readAt_unit (S := S128x128) hz2, readAt_unit (S := S128x10) hz2, readAt_unit (S := S1x10) hz2]

set_option maxHeartbeats 1000000 in
/-- At the last point: the accumulators are updated by the tile and then finalised into the result buffer, found at anything. -/
theorem sound_kernel2_C (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S5000x1 .i32) (harg3 : arg3.IsWhole)
    (arg4 : Memref sig .tc .vmem S128x10 .f32) (harg4 : arg4.IsWhole) (arg5 : Memref sig .tc .vmem S1x10 .f32) (harg5 : arg5.IsWhole)
    (arg6 : Memref sig .tc .vmem S128x10 .f32) (harg6 : arg6.IsWhole) (arg7 : Memref sig .tc .vmem S128x128 .f32) (harg7 : arg7.IsWhole)
    (arg8 : Memref sig .tc .vmem S128x128 .f32) (harg8 : arg8.IsWhole)
    (hc0 : ¬cond2_0 i) (hc1 : cond2_1 i)
    (x0 : Vec F S5000x128 .f32) (x1 : Vec F S1x128 .f32) (x2 : Vec F S5000x1 .i32) (x3 : Vec F S128x10 .f32) (x4 : Vec F S1x10 .f32)
    (s0 s1 : Vec F S128x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare s0
        ∗ owns (c : Thread nD τ) arg8 fullShare s1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k2_pay1 (k2_pay5 x0 x1 x2 s0) (k2_pay6 x2 s1) x3 x4)
            ∗ owns (c : Thread nD τ) arg7 fullShare (k2_pay5 x0 x1 x2 s0)
            ∗ owns (c : Thread nD τ) arg8 fullShare (k2_pay6 x2 s1)) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8) K := by
  simp only [cc2__pool_linear_kernel_eq_skeleton]; unfold cc2__pool_linear_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, Hk⟩
  subst hf0; subst hf1; subst hf2; subst hf3; subst hf4; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [read_writes_cons_unit hz2]
    simp only [readAt_unit (S := S5000x128) hz2, readAt_unit (S := S1x128) hz2, readAt_unit (S := S5000x1) hz2, readAt_unit (S := S128x128) hz2, readAt_unit (S := S128x10) hz2, readAt_unit (S := S1x10) hz2, View.readCov_unit_zero (S := S128x128) _ hz2]
  isplitl [HS0]
  · iexists _; isplitr
    swap; · iexact HS0
    ipureintro
    sl_unfold_words
    rw [read_writes_cons_unit hz2]
    simp only [readAt_unit (S := S5000x128) hz2, readAt_unit (S := S1x128) hz2, readAt_unit (S := S5000x1) hz2, readAt_unit (S := S128x128) hz2, readAt_unit (S := S128x10) hz2, readAt_unit (S := S1x10) hz2]
  iexists _; isplitr
  swap; · iexact HS1
  ipureintro
  sl_unfold_words
  rw [read_writes_cons_unit hz2]
  simp only [readAt_unit (S := S5000x128) hz2, readAt_unit (S := S1x128) hz2, readAt_unit (S := S5000x1) hz2, readAt_unit (S := S128x128) hz2, readAt_unit (S := S128x10) hz2, readAt_unit (S := S1x10) hz2]

/-! ## The inputs' staging buffers hold their blocks -/

/-- The feature tile's staging buffer holds the tile at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

/-- The bias row's staging buffer holds the row at every point: fetched once, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

/-- The graph ids' staging buffer holds the tile's ids at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

/-- The output weights' staging buffer holds them at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

/-- The output bias's staging buffer holds it at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

/-! ## The accumulators, point by point -/

/-- After the first point: the update of the cleared accumulators. -/
theorem acc2_first (c : Dev nD) (t : Fin cfg2.N) (hz : t.val = 0) :
    acc2 V c t.val t.isLt = (k2_pay5 (iblk2 V c 0 t) (iblk2 V c 1 t) (iblk2 V c 2 t) (k2_pay2 (F := F)), k2_pay6 (iblk2 V c 2 t) (k2_pay3 (F := F))) := by
  obtain ⟨n, hn⟩ := t
  cases n with
  | zero => rfl
  | succ n => exact absurd hz (Nat.succ_ne_zero n)

/-- After a later point: the update of what the point before left. -/
theorem acc2_later (c : Dev nD) (t : Fin cfg2.N) (hz : t.val ≠ 0) :
    acc2 V c t.val t.isLt = (k2_pay5 (iblk2 V c 0 t) (iblk2 V c 1 t) (iblk2 V c 2 t) (acc2 V c (t.val - 1) (Nat.lt_of_le_of_lt (Nat.sub_le _ _) t.isLt)).1,
      k2_pay6 (iblk2 V c 2 t) (acc2 V c (t.val - 1) (Nat.lt_of_le_of_lt (Nat.sub_le _ _) t.isLt)).2) := by
  obtain ⟨n, hn⟩ := t
  cases n with
  | zero => exact absurd rfl hz
  | succ n => rfl

/-! ## The launch's invariant, opened at the two accumulators -/

/-- What the launch hands the region holds the two scratch buffers at some contents, beside what gives it back once
    they return at any contents. -/
theorem PhiA2_open (c : Dev nD) :
    (Pipeline.ΦA spec2 c : sProp 𝕄) ⊢ iprop((∃ d, owns (c : Thread nD τ) scM2_0 fullShare d) ∗ (∃ d, owns (c : Thread nD τ) scM2_1 fullShare d)
      ∗ (iprop((∃ d, owns (c : Thread nD τ) scM2_0 fullShare d) ∗ (∃ d, owns (c : Thread nD τ) scM2_1 fullShare d)) -∗ Pipeline.ΦA spec2 c)) := by
  unfold Pipeline.ΦA; rw [scopedRest2_eq]; simp only [scM2_0, scM2_1, owns_whole]
  iintro ⟨⟨R0, R1, R2, R3, R4, R5, R6, R7, R8, R9, R10, S0, S1⟩, Hg⟩
  isplitl [S0]; · iexact S0
  isplitl [S1]; · iexact S1
  iintro ⟨S0, S1⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [S0]; · iexact S0
    iexact S1
  iexact Hg

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 4000000 in
/-- The body at any point. The inputs' memrefs hold their blocks. At the first point the launch's invariant opens at the
    two scratch buffers, which the body clears and updates; at a later point the invariant holds them at what the point
    before left, and the body updates them; at the last point it also stores the result block. Everywhere else the
    result window is idle and its buffer comes back as found. The rest of the launch's invariant and the core's dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  have hN : t.val < 20 := lt_of_lt_of_eq t.isLt (show cfg2.N = 20 from N_2)
  by_cases h0 : t.val % 20 = 0
  · have hz : t.val = 0 := by omega
    have h1 : ¬t.val % 20 = 19 := by omega
    rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
    rw [acc2_first V c t hz]
    rw [PhiS2_castSucc V c t, PhiS2_zero V c _ _ hz]
    iintro ⟨HΦ, Ho, ⟨%d0, H0⟩, ⟨%d1, H1⟩, ⟨%d2, H2⟩, ⟨%d3, H3⟩, ⟨%d4, H4⟩, ⟨%d5, H5⟩⟩
    ihave HΦ' := (PhiA2_open (F := F) c) $$ HΦ
    icases HΦ' with ⟨HS0, HS1, Hw⟩
    iapply (sound_kernel2_A c Set.univ (grid2.coords t) _ _ _ _ _ _ _ _ _ _ _ _ _ _ _ _ ((hcond2_0 t).mpr h0) (fun h => h1 ((hcond2_1 t).mp h))
      (iblk2 V c 0 t) (iblk2 V c 1 t) (iblk2 V c 2 t) (iblk2 V c 3 t) (iblk2 V c 4 t) ((dat2 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hw]
    · isplitl [HS0]; · iexact HS0
      isplitl [HS1]; · iexact HS1
      iexact Hw
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    rw [acc2_later V c t hz]
    rw [PhiS2_castSucc V c t, PhiS2_pos V c _ _ hz]
    by_cases h1 : t.val % 20 = 19
    · rw [show (dat2 V c).leavesExact 5 t = owns (c : Thread nD τ) (st2_5 t) fullShare ((dat2 V c).after 5 t) from by
        unfold Dat.leavesExact; rw [liveAt2_5_C t (fun h => h0 ((hcond2_0 t).mp h)) ((hcond2_1 t).mpr h1)], after2_5]
      unfold out2_5
      rw [acc2_later V c t hz]
      iintro ⟨⟨HS0, HS1, Hw⟩, Ho, ⟨%d0, H0⟩, ⟨%d1, H1⟩, ⟨%d2, H2⟩, ⟨%d3, H3⟩, ⟨%d4, H4⟩, ⟨%d5, H5⟩⟩
      iapply (sound_kernel2_C c Set.univ (grid2.coords t) _ _ _ _ _ _ _ _ _ _ _ _ _ _ _ _ (fun h => h0 ((hcond2_0 t).mp h)) ((hcond2_1 t).mpr h1)
        (iblk2 V c 0 t) (iblk2 V c 1 t) (iblk2 V c 2 t) (iblk2 V c 3 t) (iblk2 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hw]
      · isplitl [HS0]; · iexact HS0
        isplitl [HS1]; · iexact HS1
        iexact Hw
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      iintro ⟨⟨HS0, HS1, Hw⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) (iblk2 V c 4 t) ((dat2 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hw]
      · isplitl [HS0]; · iexact HS0
        isplitl [HS1]; · iexact HS1
        iexact Hw
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: the accumulators' contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨HS0, HS1, Hw⟩
  iapply Hw
  isplitl [HS0]
  · iexists _; iexact HS0
  iexists _; iexact HS1

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Region

end
-- ==== Proof.RefAgg.lean ====
/-
  The normalised adjacency operator, as one function. Both programs aggregate a feature matrix `h` the same way: gather
  the rows of `h` at the source nodes (a negative index wrapped by the node count first), scale row `e` by the edge's
  coefficient `nrm e`, and scatter-add the rows at the destination nodes into zeros. `Agg h row nrm col` is that chain
  with the source list, the coefficients and the destination list as parameters; the reference's two aggregation
  stages are `Agg` of the transform before them, by unfolding their definitions.
-/
import proofs.«426831_j88648124990792_1_alg».proof.Proof.RefRead

noncomputable section

namespace Cert.ReferenceIdeal.AggStage

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Gather the rows of `h` at `row` (negative entries wrapped), scale row `e` by `nrm e`, scatter-add at `col`. -/
def Agg (h : (⟨S100000x128, .f32⟩ : BufTy).Contents (Elt F)) (row : (⟨S1700000, .i32⟩ : BufTy).Contents (Elt F))
    (nrm : (⟨S1700000, .f32⟩ : BufTy).Contents (Elt F)) (col : (⟨S1700000, .i32⟩ : BufTy).Contents (Elt F)) :
    (⟨S100000x128, .f32⟩ : BufTy).Contents (Elt F) :=
  Host.scatterAdd scatter_S100000x128_S1700000x1_S1700000x128_1_0_0_1 (val_main_v41 (F := F))
    (broadcastInDim S1700000x1 ![0] bcast_S1700000_S1700000x1_0 col)
    (mulf (Host.gather gather_S100000x128_S1700000x1_S1700000x128_1_0_n_n_0_1_1128 h
        (broadcastInDim S1700000x1 ![0] bcast_S1700000_S1700000x1_0
          (select (cmpi .slt row (val_main_v31 (F := F))) (addi row (val_main_v33 (F := F))) row)))
      (broadcastInDim S1700000x128 ![0, 1] bcast_S1700000x1_S1700000x128_0_1
        (broadcastInDim S1700000x1 ![0] bcast_S1700000_S1700000x1_0 nrm)))

/-- The first aggregation is `Agg` of the first transform. -/
theorem v43_agg (x0 : (⟨S100000x128, .f32⟩ : BufTy).Contents (Elt F)) (x1 : (⟨S2x1600000, .i32⟩ : BufTy).Contents (Elt F))
    (x3 : (⟨S128x128, .f32⟩ : BufTy).Contents (Elt F)) :
    val_main_v43 (F := F) x0 x1 x3
      = Agg (val_main_v30 (F := F) x0 x3) (val_main_v3 (F := F) x1) (val_main_v29 (F := F) x1) (val_main_v6 (F := F) x1) := rfl

/-- The second aggregation is `Agg` of the second transform. -/
theorem v61_agg (x0 : (⟨S100000x128, .f32⟩ : BufTy).Contents (Elt F)) (x1 : (⟨S2x1600000, .i32⟩ : BufTy).Contents (Elt F))
    (x3 : (⟨S128x128, .f32⟩ : BufTy).Contents (Elt F)) (x4 : (⟨S128, .f32⟩ : BufTy).Contents (Elt F))
    (x5 : (⟨S128x128, .f32⟩ : BufTy).Contents (Elt F)) :
    val_main_v61 (F := F) x0 x1 x3 x4 x5
      = Agg (val_main_v48 (F := F) x0 x1 x3 x4 x5) (val_main_v3 (F := F) x1) (val_main_v29 (F := F) x1) (val_main_v6 (F := F) x1) := rfl

end Cert.ReferenceIdeal.AggStage

end
-- ==== Proof.KI.Glue.lean ====
/-
  The host side of the kernel program, read as values. Each aggregation stretch of @main leaves in its result buffer
  the normalised adjacency operator `Agg` applied to the region's result before it, with the source list, the edge
  coefficients and the destination list the first stretches computed from the edge index; the bias vectors, the graph
  ids and the output bias reach the regions reshaped to a row or a column; nothing writes an argument. The source
  list, coefficients and destination list are, operation for operation, the reference's.
-/
import proofs.«426831_j88648124990792_1_alg».proof.Proof.KI.Frame
import proofs.«426831_j88648124990792_1_alg».proof.Proof.RefAgg
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.StableHlo
open Idealize.SL.Sem
open Cert.ReferenceIdeal.AggStage (Agg)

variable {F : FTy → Type} [FloatOps F]
variable (m : (ℓ : Loc nD τ sig) → Buf (Elt F) ℓ)

/-! ## The aggregation stretches -/

set_option maxHeartbeats 4000000 in
/-- After the first aggregation stretch its result buffer holds `Agg` of region 0's result. -/
theorem U5_v43 (c : Dev nD) :
    U5 m c main_v43 = Agg (F := F) (U4 m c main_v30) (U4 m c main_v3) (U4 m c main_v29) (U4 m c main_v6) := by
  show StableHlo.after hostOps1 (U4 m c) (Proc.devRef .tc main_v43) = _
  after_results
  rfl

set_option maxHeartbeats 4000000 in
/-- and the first bias vector as a row. -/
theorem U5_v44 (c : Dev nD) :
    U5 m c main_v44 = shapeCast S1x128 (U4 m c main_arg4) shapeCasts_S128_S1x128 := by
  show StableHlo.after hostOps1 (U4 m c) (Proc.devRef .tc main_v44) = _
  after_results
  rfl

set_option maxHeartbeats 4000000 in
/-- After the second aggregation stretch its result buffer holds `Agg` of region 1's result, -/
theorem U7_v58 (c : Dev nD) :
    U7 m c main_v58 = Agg (F := F) (U6 m c main_v45) (U6 m c main_v3) (U6 m c main_v29) (U6 m c main_v6) := by
  show StableHlo.after hostOps2 (U6 m c) (Proc.devRef .tc main_v58) = _
  after_results
  rfl

set_option maxHeartbeats 4000000 in
/-- the graph ids as a column, -/
theorem U7_v59 (c : Dev nD) :
    U7 m c main_v59 = shapeCast S100000x1 (U6 m c main_arg2) shapeCasts_S100000_S100000x1 := by
  show StableHlo.after hostOps2 (U6 m c) (Proc.devRef .tc main_v59) = _
  after_results
  rfl

set_option maxHeartbeats 4000000 in
/-- the second bias vector as a row, -/
theorem U7_v60 (c : Dev nD) :
    U7 m c main_v60 = shapeCast S1x128 (U6 m c main_arg6) shapeCasts_S128_S1x128 := by
  show StableHlo.after hostOps2 (U6 m c) (Proc.devRef .tc main_v60) = _
  after_results
  rfl

set_option maxHeartbeats 4000000 in
/-- and the output bias as a row. -/
theorem U7_v61 (c : Dev nD) :
    U7 m c main_v61 = shapeCast S1x10 (U6 m c main_arg8) shapeCasts_S10_S1x10 := by
  show StableHlo.after hostOps2 (U6 m c) (Proc.devRef .tc main_v61) = _
  after_results
  rfl

/-! ## What no item writes -/

/-- A buffer none of the first three stretches writes is as launched when region 0 is entered. -/
theorem V3_arg (c : Dev nD) (r : Ref sig .tc) (h1 : r ∉ hostOps0_W) (h2 : r ∉ hostOps0_1_W) (h3 : r ∉ hostOps0_2_W) :
    V3 m c r = m ((c : Thread nD τ).loc r) :=
  (V3_of m c r h3).trans ((V2_of m c r h2).trans ((V1_of m c r h1).trans rfl))

theorem U5_of (c : Dev nD) (r : Ref sig .tc) (h : r ∉ hostOps1_W) : U5 m c r = U4 m c r := V5_of m (outs m) c r h
theorem U7_of (c : Dev nD) (r : Ref sig .tc) (h : r ∉ hostOps2_W) : U7 m c r = U6 m c r := V7_of m (outs m) c r h

/-- A buffer that neither region 0 nor the first aggregation stretch writes is, at region 1's entry, what it was at region 0's. -/
theorem U5_keep (c : Dev nD) (r : Ref sig .tc) (h30 : r ≠ main_v30) (h1 : r ∉ hostOps1_W) : U5 m c r = V3 m c r :=
  (U5_of m c r h1).trans (U4_of_ne m c r h30)

/-- The same up to the second aggregation stretch's start. -/
theorem U6_keep (c : Dev nD) (r : Ref sig .tc) (h30 : r ≠ main_v30) (h1 : r ∉ hostOps1_W) (h45 : r ≠ main_v45) : U6 m c r = V3 m c r :=
  (U6_of_ne m c r h45).trans (U5_keep m c r h30 h1)

/-- And up to region 2's entry. -/
theorem U7_keep (c : Dev nD) (r : Ref sig .tc) (h30 : r ≠ main_v30) (h1 : r ∉ hostOps1_W) (h45 : r ≠ main_v45) (h2 : r ∉ hostOps2_W) :
    U7 m c r = V3 m c r :=
  (U7_of m c r h2).trans (U6_keep m c r h30 h1 h45)

/-! ## The source list, the destination list and the edge coefficients are the reference's -/

set_option maxHeartbeats 4000000 in
theorem V3_row (c : Dev nD) :
    V3 m c main_v3 = Cert.ReferenceIdeal.Read.val_main_v3 (F := F) (m ((c : Thread nD τ).loc main_arg1)) := by
  refine (V3_of m c main_v3 (by decide)).trans ((V2_of m c main_v3 (by decide)).trans ?_)
  show StableHlo.after hostOps0 (V0 m c) (Proc.devRef .tc main_v3) = _
  after_results
  rfl

set_option maxHeartbeats 4000000 in
theorem V3_col (c : Dev nD) :
    V3 m c main_v6 = Cert.ReferenceIdeal.Read.val_main_v6 (F := F) (m ((c : Thread nD τ).loc main_arg1)) := by
  refine (V3_of m c main_v6 (by decide)).trans ((V2_of m c main_v6 (by decide)).trans ?_)
  show StableHlo.after hostOps0 (V0 m c) (Proc.devRef .tc main_v6) = _
  after_results
  rfl

set_option maxHeartbeats 16000000 in
theorem V3_nrm (c : Dev nD) :
    V3 m c main_v29 = Cert.ReferenceIdeal.Read.val_main_v29 (F := F) (m ((c : Thread nD τ).loc main_arg1)) := by
  show StableHlo.after hostOps0_2 (StableHlo.after hostOps0_1 (StableHlo.after hostOps0 (V0 m c))) (Proc.devRef .tc main_v29) = _
  after_results_simp
  rfl

end Cert.KernelIdeal.Region

end
-- ==== Proof.Spec.lean ====
/-
  The mathematics both programs compute, as plain functions on extended-real matrices.

  A two-layer graph convolution followed by a mean pool and a linear layer. With `A` the normalised adjacency
  operator (a gather of rows, a scaling and a scatter-add of rows — the same operations in both programs, so it is
  never opened here), the result is
      `poolLinear (A (mm (reluBias (A (mm x W₁)) b₁) W₂)) b₂ batch W_lin b_lin`.
  * `mm l r` is the matrix product, entry `(p, j)` the sum over `k` of `l (p, k) * r (k, j)`.
  * `reluBias x b` adds the row `b` to every row of `x` and takes the maximum with zero.
  * `ind ids n g` is one when node `n`'s graph id is `g` and zero otherwise; `segSum ids u` sums the rows of `u`
    graph by graph, `segCount ids` counts the nodes of each graph (each node counted as the float one).
    An id outside `[0, 128)` matches no graph, so its node is dropped from every sum.
  * `poolLinear` divides each graph's sum by its count, at least one, multiplies by `W_lin` and adds `b_lin`.
-/
import Idealize.ShloMosaic.Lib.ValueIdx
import Idealize.ShloMosaic.PureOps.Ideal

noncomputable section

namespace Cert.Spec

open Idealize.ShloMosaic Idealize.ShloMosaic.ValueIdx
open scoped BigOperators

/-- An `a × b` matrix of extended reals, indexed as the printed programs index a rank-2 array. -/
abbrev Mat (a b : ℕ) : Type := (⟨2, ![a, b]⟩ : Shape).Idx → EReal

/-- A column of 32-bit ids, one per row. -/
abbrev Ids (a : ℕ) : Type := (⟨2, ![a, 1]⟩ : Shape).Idx → BitVec 32

/-- The float one, kept as its binary word: both programs count with this word and compare against it. -/
abbrev one : EReal := Ideal.ofBits .f32 0x3F800000#32

/-- A rank-1 array read as a one-row matrix. -/
def rowOf {N : ℕ} (b : (⟨1, ![N]⟩ : Shape).Idx → EReal) : Mat 1 N := fun i => b (ix1 (i 1))

/-- A rank-1 array of ids read as a one-column matrix. -/
def colOf {M : ℕ} (ids : (⟨1, ![M]⟩ : Shape).Idx → BitVec 32) : Ids M := fun i => ids (ix1 (i 0))

/-- The matrix product. -/
def mm {M K N : ℕ} (l : Mat M K) (r : Mat K N) : Mat M N :=
  fun i => ∑ k : Fin K, l (ix2 (i 0) k) * r (ix2 k (i 1))

/-- The row `b` added to every row, then the maximum with zero. -/
def reluBias {M N : ℕ} (x : Mat M N) (b : Mat 1 N) : Mat M N :=
  fun i => max (x i + b (ix2 0 (i 1))) 0

/-- One when node `n`'s id is graph `g`, else zero. -/
def ind {M : ℕ} (ids : Ids M) (n : Fin M) (g : Fin 128) : EReal :=
  if ids (ix2 n 0) = BitVec.ofNat 32 g.val then 1 else 0

/-- The rows of `u` summed graph by graph. -/
def segSum {M N : ℕ} (ids : Ids M) (u : Mat M N) : Mat 128 N :=
  fun i => ∑ n : Fin M, ind ids n (i 0) * u (ix2 n (i 1))

/-- The number of nodes of each graph, each node counted as the float one. -/
def segCount {M : ℕ} (ids : Ids M) (g : Fin 128) : EReal :=
  ∑ n : Fin M, ind ids n g * one

/-- Mean pool of the rectified rows, then the linear layer. -/
def poolLinear {M : ℕ} (agg : Mat M 128) (b : Mat 1 128) (ids : Ids M) (wlin : Mat 128 10) (blin : Mat 1 10) : Mat 128 10 :=
  fun i => (∑ k : Fin 128,
      Ideal.div (segSum ids (reluBias agg b) (ix2 (i 0) k)) (max (segCount ids (i 0)) one) * wlin (ix2 k (i 1)))
    + blin (ix2 0 (i 1))

end Cert.Spec

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KI.Val0.lean ====
/-
  The first dense transform, as a value: over the extended reals the result array of the first kernel region, after
  all twenty row tiles are written back, is the matrix product of the node features and the first weight matrix,
      `(x · W₁) (r, j) = ∑ k, x (r, k) * W₁ (k, j)`.
  Point `t` multiplies rows `[5000 t, 5000 (t+1))` of `x` by the whole of `W₁` (the narrowing of the operands is the
  identity on extended reals, and the product into a zero accumulator is the exact sum), so what it writes back is the
  product restricted to those rows; row `r` lies in the tile of point `r / 5000`, so the tiles cover the array.
-/
import proofs.«426831_j88648124990792_1_alg».proof.Proof.KI.Reg0
import proofs.«426831_j88648124990792_1_alg».proof.Proof.Spec
import proofs.«426831_j88648124990792_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region.Val0
open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

-- the TensorCore's buffer contents when the region is entered, read as extended reals
variable (V : (c : Dev nD) → (b : Ref sig .tc) → Buf (Elt Ideal) ((c : Thread nD τ).loc b))

/-- Both offsets of a whole-buffer access are zero. -/
theorem hz0 : (![0, 0] : Fin 2 → Nat) = fun _ => 0 := funext fun a => by fin_cases a <;> rfl

/-! ## One tile's product, entry by entry -/

/-- The body's stored value at `(p, j)`: row `p` of the tile against column `j` of the matrix. -/
theorem pay0_apply (x0 : Vec Ideal S5000x128 .f32) (x1 : Vec Ideal S128x128 .f32) (p : Fin 5000) (j : Fin 128) :
    k0_pay1 x0 x1 (ix2 p j) = ∑ k : Fin 128, x0 (ix2 p k) * x1 (ix2 k j) := by
  unfold k0_pay1
  exact Cert.LibRowOps.matmul_plain_apply _ rfl none _ _ p j

/-! ## Where each window's block sits at a point -/

/-- At point `t` the row tile and the result tile are block `t` along the rows; the matrix is its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row tile at point `t`, at `(p, k)`, is the features at row `5000 t + p`. -/
theorem iblk0_0_apply (c : Dev nD) (t : Fin cfg0.N) (p : Fin 5000) (k : Fin 128) (r : Fin 100000) (hr : r.val = t.val * 5000 + p.val) :
    (iblk0 (F := Ideal) V c 0 t : Vec Ideal S5000x128 .f32) (ix2 p k) = (V c (Pipeline.arrRef spec0 0) : Cert.Spec.Mat 100000 128) (ix2 r k) := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The matrix's block at any point is the matrix. -/
theorem iblk0_1_apply (c : Dev nD) (t : Fin cfg0.N) (k : Fin 128) (j : Fin 128) :
    (iblk0 (F := Ideal) V c 1 t : Vec Ideal S128x128 .f32) (ix2 k j) = (V c (Pipeline.arrRef spec0 1) : Cert.Spec.Mat 128 128) (ix2 k j) := by
  obtain ⟨-, -, e0, e1, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t 0 * 128 + 1 * k.val = k.val; rw [e0]; omega
  | ⟨1, _⟩ => show win0_1.index t 1 * 128 + 1 * j.val = j.val; rw [e1]; omega

/-! ## What a point writes back is its rows of the product -/

/-- The result's buffer after the body at point `t`, at `(p, j)`: entry `(5000 t + p, j)` of the product. -/
theorem out0_apply (c : Dev nD) (t : Fin cfg0.N) (p : Fin 5000) (j : Fin 128) (r : Fin 100000) (hr : r.val = t.val * 5000 + p.val) :
    out0_2 (iblk0 (F := Ideal) V c 0 t) (iblk0 (F := Ideal) V c 1 t) (ix2 p j)
      = Cert.Spec.mm (V c (Pipeline.arrRef spec0 0) : Cert.Spec.Mat 100000 128) (V c (Pipeline.arrRef spec0 1) : Cert.Spec.Mat 128 128) (ix2 r j) := by
  unfold out0_2
  rw [View.canon_unit_zero hz0]
  simp only [View.ld_unit_zero (S := S5000x128) hz0, View.ld_unit_zero (S := S128x128) hz0]
  rw [pay0_apply]
  unfold Cert.Spec.mm
  refine Finset.sum_congr rfl fun k _ => ?_
  rw [iblk0_0_apply V c t p k r hr, iblk0_1_apply V c t k j]

/-- Point `t` writes back the product read through the result window's block at `t`. -/
theorem flushed0_eq (c : Dev nD) (t : Fin cfg0.N) :
    (dat0 (F := Ideal) V c).flushed 2 t = ((cfg0.win 2).blk t).view.read (Elt Ideal)
      (Cert.Spec.mm (V c (Pipeline.arrRef spec0 0) : Cert.Spec.Mat 100000 128) (V c (Pipeline.arrRef spec0 1) : Cert.Spec.Mat 128 128)) := by
  show (cfg0.win 2).cut (grid0.coords t) ((dat0 V c).after 2 t) = _
  rw [after0_2]
  funext y
  obtain ⟨p, j, rfl⟩ : ∃ (p : Fin 5000) (j : Fin 128), y = ix2 p j := ⟨y 0, y 1, eq_ix2 y⟩
  have ht : t.val < 20 := lt_of_lt_of_eq t.isLt N_0
  have hp : p.val < 5000 := p.isLt
  obtain ⟨-, -, -, -, e0, e1⟩ := idx_facts0 t
  show out0_2 (iblk0 V c 0 t) (iblk0 V c 1 t) (ix2 p j)
    = Cert.Spec.mm (V c (Pipeline.arrRef spec0 0) : Cert.Spec.Mat 100000 128) (V c (Pipeline.arrRef spec0 1) : Cert.Spec.Mat 128 128) (((cfg0.win 2).blk t).view.emb (ix2 p j))
  rw [out0_apply V c t p j ⟨t.val * 5000 + p.val, by omega⟩ rfl]
  congr 1
  funext a
  apply Fin.ext
  match a with
  | ⟨0, _⟩ => show t.val * 5000 + p.val = win0_2.index t 0 * 5000 + 1 * p.val; rw [e0]; omega
  | ⟨1, _⟩ => show j.val = win0_2.index t 1 * 128 + 1 * j.val; rw [e1]; omega

/-! ## The tiles cover the array -/

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` is in the tile of point `r / 5000`, and every point writes back. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_2 t, ?_⟩
  rw [mem_blk0]
  obtain ⟨-, -, -, -, e0, e1⟩ := idx_facts0 t
  intro a
  match a with
  | ⟨0, _⟩ => show win0_2.index t 0 * 5000 ≤ (i 0).val ∧ (i 0).val < win0_2.index t 0 * 5000 + 5000; rw [e0, ht]; omega
  | ⟨1, _⟩ => show win0_2.index t 1 * 128 ≤ (i 1).val ∧ (i 1).val < win0_2.index t 1 * 128 + 128; rw [e1]; omega

/-! ## The result array -/

/-- After the twenty write-backs the result array is the product of the features and the weight matrix. -/
theorem arr0 (c : Dev nD) :
    (dat0 (F := Ideal) V c).arrAt 2 cfg0.N
      = Cert.Spec.mm (V c (Pipeline.arrRef spec0 0) : Cert.Spec.Mat 100000 128) (V c (Pipeline.arrRef spec0 1) : Cert.Spec.Mat 128 128) :=
  (dat0 (F := Ideal) V c).arrAt_eq_of_cover 2 _ (fun t _ => flushed0_eq V c t) cover0

end Cert.KernelIdeal.Region.Val0
end
-- ==== Proof.KI.Val1.lean ====
/-
  The second dense transform, as a value: over the extended reals the result array of the second kernel region, after
  all twenty row tiles are written back, is
      `(max (a + b₁, 0) · W₂) (r, j) = ∑ k, max (a (r, k) + b₁ (0, k)) 0 * W₂ (k, j)`,
  with `a` the aggregated features, `b₁` the bias row and `W₂` the second weight matrix as the region finds them.
  Point `t` adds the bias row to rows `[5000 t, 5000 (t+1))` of `a`, takes the maximum with zero and multiplies by the
  whole of `W₂` (the narrowing of the operands is the identity on extended reals, and the product into a zero
  accumulator is the exact sum), so what it writes back is that matrix restricted to those rows; row `r` lies in the
  tile of point `r / 5000`, so the tiles cover the array.
-/
import proofs.«426831_j88648124990792_1_alg».proof.Proof.KI.Reg1
import proofs.«426831_j88648124990792_1_alg».proof.Proof.Spec
import proofs.«426831_j88648124990792_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region.Val1
open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

-- the TensorCore's buffer contents when the region is entered, read as extended reals
variable (V : (c : Dev nD) → (b : Ref sig .tc) → Buf (Elt Ideal) ((c : Thread nD τ).loc b))

/-- Both offsets of a whole-buffer access are zero. -/
theorem hz1 : (![0, 0] : Fin 2 → Nat) = fun _ => 0 := funext fun a => by fin_cases a <;> rfl

/-! ## One tile's rectified rows times the matrix, entry by entry -/

/-- The body's stored value at `(p, j)`: row `p` of the tile, with the bias row added and cut off below at zero,
    against column `j` of the matrix. -/
theorem pay1_apply (x0 : Vec Ideal S5000x128 .f32) (x1 : Vec Ideal S1x128 .f32) (x2 : Vec Ideal S128x128 .f32) (p : Fin 5000) (j : Fin 128) :
    k1_pay1 x0 x1 x2 (ix2 p j) = ∑ k : Fin 128, max (x0 (ix2 p k) + x1 (ix2 (0 : Fin 1) k)) 0 * x2 (ix2 k j) := by
  unfold k1_pay1
  refine (Cert.LibRowOps.matmul_plain_apply _ rfl none _ _ p j).trans ?_
  refine Finset.sum_congr rfl fun k _ => ?_
  rw [truncf_apply, truncf_apply, maximumf_apply, addf_apply, broadcast_apply, shapeCast_self, shapeCast_self,
    broadcastTo_1b_ab_apply]
  show max (x0 (ix2 p k) + x1 (ix2 (0 : Fin 1) k)) (Ideal.ofBits .f32 0x00000000#32) * x2 (ix2 k j) = _
  rw [Ideal.ofBits_zero_f32]

/-! ## Where each window's block sits at a point -/

/-- At point `t` the row tile and the result tile are block `t` along the rows; the bias row and the matrix are
    each their one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row tile at point `t`, at `(p, k)`, is the aggregated features at row `5000 t + p`. -/
theorem iblk1_0_apply (c : Dev nD) (t : Fin cfg1.N) (p : Fin 5000) (k : Fin 128) (r : Fin 100000) (hr : r.val = t.val * 5000 + p.val) :
    (iblk1 (F := Ideal) V c 0 t : Vec Ideal S5000x128 .f32) (ix2 p k) = (V c (Pipeline.arrRef spec1 0) : Cert.Spec.Mat 100000 128) (ix2 r k) := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The bias row's block at any point is the bias row. -/
theorem iblk1_1_apply (c : Dev nD) (t : Fin cfg1.N) (k : Fin 128) :
    (iblk1 (F := Ideal) V c 1 t : Vec Ideal S1x128 .f32) (ix2 (0 : Fin 1) k) = (V c (Pipeline.arrRef spec1 1) : Cert.Spec.Mat 1 128) (ix2 (0 : Fin 1) k) := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * 0 = 0; rw [e0]
  | ⟨1, _⟩ => show win1_1.index t 1 * 128 + 1 * k.val = k.val; rw [e1]; omega

/-- The matrix's block at any point is the matrix. -/
theorem iblk1_2_apply (c : Dev nD) (t : Fin cfg1.N) (k : Fin 128) (j : Fin 128) :
    (iblk1 (F := Ideal) V c 2 t : Vec Ideal S128x128 .f32) (ix2 k j) = (V c (Pipeline.arrRef spec1 2) : Cert.Spec.Mat 128 128) (ix2 k j) := by
  obtain ⟨-, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t 0 * 128 + 1 * k.val = k.val; rw [e0]; omega
  | ⟨1, _⟩ => show win1_2.index t 1 * 128 + 1 * j.val = j.val; rw [e1]; omega

/-! ## What a point writes back is its rows of the whole-array value -/

/-- The result's buffer after the body at point `t`, at `(p, j)`: entry `(5000 t + p, j)` of the rectified
    features times the matrix. -/
theorem out1_apply (c : Dev nD) (t : Fin cfg1.N) (p : Fin 5000) (j : Fin 128) (r : Fin 100000) (hr : r.val = t.val * 5000 + p.val) :
    out1_3 (iblk1 (F := Ideal) V c 0 t) (iblk1 (F := Ideal) V c 1 t) (iblk1 (F := Ideal) V c 2 t) (ix2 p j)
      = Cert.Spec.mm (Cert.Spec.reluBias (V c (Pipeline.arrRef spec1 0) : Cert.Spec.Mat 100000 128) (V c (Pipeline.arrRef spec1 1) : Cert.Spec.Mat 1 128))
          (V c (Pipeline.arrRef spec1 2) : Cert.Spec.Mat 128 128) (ix2 r j) := by
  unfold out1_3
  rw [View.canon_unit_zero hz1]
  simp only [View.ld_unit_zero (S := S5000x128) hz1, View.ld_unit_zero (S := S1x128) hz1, View.ld_unit_zero (S := S128x128) hz1]
  rw [pay1_apply]
  unfold Cert.Spec.mm Cert.Spec.reluBias
  refine Finset.sum_congr rfl fun k _ => ?_
  rw [iblk1_0_apply V c t p k r hr, iblk1_1_apply V c t k, iblk1_2_apply V c t k j]

/-- Point `t` writes back the whole-array value read through the result window's block at `t`. -/
theorem flushed1_eq (c : Dev nD) (t : Fin cfg1.N) :
    (dat1 (F := Ideal) V c).flushed 3 t = ((cfg1.win 3).blk t).view.read (Elt Ideal)
      (Cert.Spec.mm (Cert.Spec.reluBias (V c (Pipeline.arrRef spec1 0) : Cert.Spec.Mat 100000 128) (V c (Pipeline.arrRef spec1 1) : Cert.Spec.Mat 1 128))
        (V c (Pipeline.arrRef spec1 2) : Cert.Spec.Mat 128 128)) := by
  show (cfg1.win 3).cut (grid1.coords t) ((dat1 V c).after 3 t) = _
  rw [after1_3]
  funext y
  obtain ⟨p, j, rfl⟩ : ∃ (p : Fin 5000) (j : Fin 128), y = ix2 p j := ⟨y 0, y 1, eq_ix2 y⟩
  have ht : t.val < 20 := lt_of_lt_of_eq t.isLt N_1
  have hp : p.val < 5000 := p.isLt
  obtain ⟨-, -, -, -, -, -, e0, e1⟩ := idx_facts1 t
  show out1_3 (iblk1 V c 0 t) (iblk1 V c 1 t) (iblk1 V c 2 t) (ix2 p j)
    = Cert.Spec.mm (Cert.Spec.reluBias (V c (Pipeline.arrRef spec1 0) : Cert.Spec.Mat 100000 128) (V c (Pipeline.arrRef spec1 1) : Cert.Spec.Mat 1 128))
        (V c (Pipeline.arrRef spec1 2) : Cert.Spec.Mat 128 128) (((cfg1.win 3).blk t).view.emb (ix2 p j))
  rw [out1_apply V c t p j ⟨t.val * 5000 + p.val, by omega⟩ rfl]
  congr 1
  funext a
  apply Fin.ext
  match a with
  | ⟨0, _⟩ => show t.val * 5000 + p.val = win1_3.index t 0 * 5000 + 1 * p.val; rw [e0]; omega
  | ⟨1, _⟩ => show j.val = win1_3.index t 1 * 128 + 1 * j.val; rw [e1]; omega

/-! ## The tiles cover the array -/

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row `r` is in the tile of point `r / 5000`, and every point writes back. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_3 t, ?_⟩
  rw [mem_blk1]
  obtain ⟨-, -, -, -, -, -, e0, e1⟩ := idx_facts1 t
  intro a
  match a with
  | ⟨0, _⟩ => show win1_3.index t 0 * 5000 ≤ (i 0).val ∧ (i 0).val < win1_3.index t 0 * 5000 + 5000; rw [e0, ht]; omega
  | ⟨1, _⟩ => show win1_3.index t 1 * 128 ≤ (i 1).val ∧ (i 1).val < win1_3.index t 1 * 128 + 128; rw [e1]; omega

/-! ## The result array -/

/-- After the twenty write-backs the result array is the rectified, biased features times the weight matrix. -/
theorem arr1 (c : Dev nD) :
    (dat1 (F := Ideal) V c).arrAt 3 cfg1.N
      = Cert.Spec.mm (Cert.Spec.reluBias (V c (Pipeline.arrRef spec1 0) : Cert.Spec.Mat 100000 128) (V c (Pipeline.arrRef spec1 1) : Cert.Spec.Mat 1 128))
          (V c (Pipeline.arrRef spec1 2) : Cert.Spec.Mat 128 128) :=
  (dat1 (F := Ideal) V c).arrAt_eq_of_cover 3 _ (fun t _ => flushed1_eq V c t) cover1

end Cert.KernelIdeal.Region.Val1
end
-- ==== Proof.KI.Val2.lean ====
/-
  The value the pooling region leaves in its result array, at the ideal floats.

  One grid point adds, into the two 128 × 128 accumulators, the products of the one-hot matrix of its 5000 graph ids
  with its 5000 rectified rows and with a matrix of ones; over the 20 points the first accumulator therefore holds, at
  (g, k), the sum over all 100000 nodes n of [id n = g] · max(agg (n, k) + b k, 0), and the second the sum of
  [id n = g] · 1. The last point divides the first by the larger of the second and one, multiplies by the output
  weights and adds the output bias; its block is the whole result array and is the only one written back.
-/
import proofs.«426831_j88648124990792_1_alg».proof.Proof.KI.Reg2Data
import proofs.«426831_j88648124990792_1_alg».proof.Proof.Spec
import proofs.«426831_j88648124990792_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region.Val2
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## One point's payloads at an index -/

/-- The one-hot entry: one when row `r`'s id is `g`, else zero. -/
def oh (x2 : Vec Ideal S5000x1 .i32) (r : Fin 5000) (g : Fin 128) : EReal :=
  if x2 (ix2 r 0) = BitVec.ofNat 32 g.val then 1 else 0

/-- A column `[a, 1]` broadcast to `[a, b]` reads, at `(p, c)`, the column at row `p`. -/
theorem broadcastTo_a1_ab_apply {α : Type} {a b : ℕ} (hb : b ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot matrix of a block of ids, at `(r, g)`: the comparison's bit, widened and converted. -/
theorem pay4_apply (x2 : Vec Ideal S5000x1 .i32) (r : Fin 5000) (g : Fin 128) :
    k2_pay4 (F := Ideal) x2 (ix2 r g) = oh x2 r g := by
  unfold k2_pay4 oh
  rw [sitofp_apply, extui_apply]
  show FloatOps.sitofp .f32 ((IntOp.cmpi .eq (broadcastTo S5000x128 (shapeCast S5000x1 x2 shapeCasts_S5000x1_S5000x1) broadcasts_S5000x1_S5000x128 (ix2 r g)) (iota .tc S5000x128 32 [1] iota_S5000x128_d1_w32 (ix2 r g))).setWidth 32) = _
  rw [shapeCast_self, broadcastTo_a1_ab_apply (by decide), iota_single_apply]
  show FloatOps.sitofp .f32 ((IntOp.cmpi .eq (x2 (ix2 r 0)) (BitVec.ofNat 32 g.val)).setWidth 32) = _
  by_cases h : x2 (ix2 r 0) = BitVec.ofNat 32 g.val
  · rw [if_pos h, h]
    have e : IntOp.cmpi .eq (BitVec.ofNat 32 g.val) (BitVec.ofNat 32 g.val) = 1#1 := by simp [IntOp.cmpi]
    rw [e]
    show ((((1#1 : BitVec 1).setWidth 32).toInt : ℝ) : EReal) = 1
    rw [show ((1#1 : BitVec 1).setWidth 32).toInt = 1 from by decide]
    norm_num
  · rw [if_neg h]
    have e : IntOp.cmpi .eq (x2 (ix2 r 0)) (BitVec.ofNat 32 g.val) = 0#1 := by
      show BitVec.ofBool (x2 (ix2 r 0) == BitVec.ofNat 32 g.val) = 0#1
      rw [beq_false_of_ne h]; rfl
    rw [e]
    show ((((0#1 : BitVec 1).setWidth 32).toInt : ℝ) : EReal) = 0
    rw [show ((0#1 : BitVec 1).setWidth 32).toInt = 0 from by decide]
    norm_num

/-! ### The product that contracts the rows of both operands -/

theorem tdot_lhs_0 (i : S128x128.Idx) (q : dot_S5000x128_S5000x128_S128x128_0_0_1_1_n_n.contr.Idx) :
    (dot_S5000x128_S5000x128_S128x128_0_0_1_1_n_n.lhsIdx i q 0).val = (q ⟨0, Nat.one_pos⟩).val :=
  dot_S5000x128_S5000x128_S128x128_0_0_1_1_n_n.lhsIdx_val_of_single rfl i q

theorem tdot_lhs_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch from List.not_mem_nil),
    dif_pos (show (1 : Fin S5000x128.rank) ∈ dot_S5000x128_S5000x128_S128x128_0_0_1_1_n_n.lhsNonContracting from List.mem_singleton.mpr rfl)]
  rfl

theorem tdot_rhs_0 (i : S128x128.Idx) (q : dot_S5000x128_S5000x128_S128x128_0_0_1_1_n_n.contr.Idx) :
    (dot_S5000x128_S5000x128_S128x128_0_0_1_1_n_n.rhsIdx i q 0).val = (q ⟨0, Nat.one_pos⟩).val :=
  dot_S5000x128_S5000x128_S128x128_0_0_1_1_n_n.rhsIdx_val_of_single rfl i q

theorem tdot_rhs_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch from List.not_mem_nil),
    dif_pos (show (1 : Fin S5000x128.rank) ∈ dot_S5000x128_S5000x128_S128x128_0_0_1_1_n_n.rhsNonContracting from List.mem_singleton.mpr rfl)]
  rfl

/-- The contraction at `(g, k)`: the sum over the rows `t` of `l (t, g) * r (t, k)`. -/
theorem tdot_sum (l r : S5000x128.Idx → EReal) (g k : Fin 128) :
    ∑ q : dot_S5000x128_S5000x128_S128x128_0_0_1_1_n_n.contr.Idx,
        l (dot_S5000x128_S5000x128_S128x128_0_0_1_1_n_n.lhsIdx (ix2 g k) q) * r (dot_S5000x128_S5000x128_S128x128_0_0_1_1_n_n.rhsIdx (ix2 g k) q)
      = ∑ t : Fin 5000, l (ix2 t g) * r (ix2 t k) := by
  rw [← Equiv.sum_comp (contrEquiv1 dot_S5000x128_S5000x128_S128x128_0_0_1_1_n_n 5000 rfl rfl).symm]
  refine Finset.sum_congr rfl fun t _ => ?_
  have ht := contrEquiv1_symm_val dot_S5000x128_S5000x128_S128x128_0_0_1_1_n_n 5000 rfl rfl t
  have el : dot_S5000x128_S5000x128_S128x128_0_0_1_1_n_n.lhsIdx (ix2 g k) ((contrEquiv1 dot_S5000x128_S5000x128_S128x128_0_0_1_1_n_n 5000 rfl rfl).symm t) = ix2 t g :=
    funext fun a => Fin.ext (by
      match a with
      | ⟨0, _⟩ => exact (tdot_lhs_0 _ _).trans ht
      | ⟨1, _⟩ => exact tdot_lhs_1 _ _)
  have er : dot_S5000x128_S5000x128_S128x128_0_0_1_1_n_n.rhsIdx (ix2 g k) ((contrEquiv1 dot_S5000x128_S5000x128_S128x128_0_0_1_1_n_n 5000 rfl rfl).symm t) = ix2 t k :=
    funext fun a => Fin.ext (by
      match a with
      | ⟨0, _⟩ => exact (tdot_rhs_0 _ _).trans ht
      | ⟨1, _⟩ => exact tdot_rhs_1 _ _)
  rw [el, er]

/-- The body's product into the zero accumulator, at `(g, k)`. -/
theorem tmatmul_apply (l r : FVec Ideal S5000x128 .f32) (g k : Fin 128) :
    matmul dot_S5000x128_S5000x128_S128x128_0_0_1_1_n_n (some .fp32) l r (constant S128x128 .f32 0x00000000#32) (ix2 g k)
      = ∑ t : Fin 5000, l (ix2 t g) * r (ix2 t k) := by
  simp only [matmul]
  rw [Ideal.matmul_constant_zero_apply]
  exact tdot_sum l r g k

/-! ### The stored values -/

/-- The cleared sums accumulator. -/
theorem pay2_apply (i : S128x128.Idx) : k2_pay2 (F := Ideal) i = 0 := by
  unfold k2_pay2
  rw [shapeCast_self, broadcast_apply]
  exact Ideal.ofBits_zero_f32

/-- The cleared counts accumulator. -/
theorem pay3_apply (i : S128x128.Idx) : k2_pay3 (F := Ideal) i = 0 := by
  unfold k2_pay3
  rw [shapeCast_self, broadcast_apply]
  exact Ideal.ofBits_zero_f32

/-- The sums accumulator after one point: what it held plus, per graph and column, the rectified rows of the graph's nodes. -/
theorem pay5_apply (x0 : Vec Ideal S5000x128 .f32) (x1 : Vec Ideal S1x128 .f32) (x2 : Vec Ideal S5000x1 .i32)
    (s : Vec Ideal S128x128 .f32) (g k : Fin 128) :
    k2_pay5 (F := Ideal) x0 x1 x2 s (ix2 g k)
      = s (ix2 g k) + ∑ r : Fin 5000, oh x2 r g * max (x0 (ix2 r k) + x1 (ix2 0 k)) 0 := by
  unfold k2_pay5
  rw [shapeCast_self, addf_apply, tmatmul_apply]
  refine congrArg (s (ix2 g k) + ·) (Finset.sum_congr rfl fun r _ => ?_)
  rw [pay4_apply, maximumf_apply, addf_apply, shapeCast_self, shapeCast_self, broadcastTo_1b_ab_apply, broadcast_apply]
  show _ * max (x0 (ix2 r k) + x1 (ix2 0 k)) (Ideal.ofBits .f32 0x00000000#32) = _
  rw [Ideal.ofBits_zero_f32]

/-- The counts accumulator after one point: what it held plus, per graph, one for each of the graph's nodes. -/
theorem pay6_apply (x2 : Vec Ideal S5000x1 .i32) (s : Vec Ideal S128x128 .f32) (g k : Fin 128) :
    k2_pay6 (F := Ideal) x2 s (ix2 g k) = s (ix2 g k) + ∑ r : Fin 5000, oh x2 r g * Cert.Spec.one := by
  unfold k2_pay6
  rw [shapeCast_self, addf_apply, tmatmul_apply]
  refine congrArg (s (ix2 g k) + ·) (Finset.sum_congr rfl fun r _ => ?_)
  rw [pay4_apply, broadcast_apply]
  rfl

/-- The finalisation: the mean, the output weights, the output bias. -/
theorem pay1_apply (v34 v35 : Vec Ideal S128x128 .f32) (v39 : Vec Ideal S128x10 .f32) (v41 : Vec Ideal S1x10 .f32)
    (g : Fin 128) (j : Fin 10) :
    k2_pay1 (F := Ideal) v34 v35 v39 v41 (ix2 g j)
      = (∑ k : Fin 128, Ideal.div (v34 (ix2 g k)) (max (v35 (ix2 g k)) Cert.Spec.one) * v39 (ix2 k j)) + v41 (ix2 0 j) := by
  unfold k2_pay1
  rw [addf_apply, Cert.LibRowOps.matmul_plain_apply dot_S128x128_S128x10_S128x10_1_0_0_1_n_n rfl, broadcastTo_1b_ab_apply, shapeCast_self]
  refine congrArg (· + v41 (ix2 0 j)) (Finset.sum_congr rfl fun k _ => ?_)
  rw [divf_apply, maximumf_apply, broadcast_apply]
  rfl

/-! ## The blocks, read off the arrays -/

/-- The printed index maps over the grid: the row windows' block index is the point, every other index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

variable (V : (c : Dev nD) → (b : Ref sig .tc) → Buf (Elt Ideal) ((c : Thread nD τ).loc b))

/-- The region's five input arrays as the mathematics reads them. -/
abbrev aggA (c : Dev nD) : Cert.Spec.Mat 100000 128 := V c (Pipeline.arrRef spec2 0)
abbrev biasA (c : Dev nD) : Cert.Spec.Mat 1 128 := V c (Pipeline.arrRef spec2 1)
abbrev idsA (c : Dev nD) : Cert.Spec.Ids 100000 := V c (Pipeline.arrRef spec2 2)
abbrev wlinA (c : Dev nD) : Cert.Spec.Mat 128 10 := V c (Pipeline.arrRef spec2 3)
abbrev blinA (c : Dev nD) : Cert.Spec.Mat 1 10 := V c (Pipeline.arrRef spec2 4)

theorem rowLt (t : Fin cfg2.N) (r : Fin 5000) : 5000 * t.val + r.val < 100000 := by
  have h1 : t.val < 20 := lt_of_lt_of_eq t.isLt N_2
  have h2 := r.isLt
  omega

/-- Block `t` of the aggregated features, at `(r, k)`: row `5000 t + r`. -/
theorem blk0_apply (c : Dev nD) (t : Fin cfg2.N) (r : Fin 5000) (k : Fin 128) :
    iblk2 V c 0 t (ix2 r k) = aggA V c (ix2 ⟨5000 * t.val + r.val, rowLt t r⟩ k) := by
  obtain ⟨e0, e1, -⟩ := idx_facts t
  show V c (Pipeline.arrRef spec2 0) (((cfg2.win 0).blk t).view.emb (ix2 r k)) = V c (Pipeline.arrRef spec2 0) _
  refine congrArg _ (funext fun a => Fin.ext ?_)
  match a with
  | ⟨0, _⟩ => show win2_0.index t (0 : Fin 2) * 5000 + 1 * r.val = 5000 * t.val + r.val; omega
  | ⟨1, _⟩ => show win2_0.index t (1 : Fin 2) * 128 + 1 * k.val = k.val; omega

/-- The bias row's block is the row. -/
theorem blk1_apply (c : Dev nD) (t : Fin cfg2.N) (k : Fin 128) :
    iblk2 V c 1 t (ix2 0 k) = biasA V c (ix2 0 k) := by
  obtain ⟨-, -, e0, e1, -⟩ := idx_facts t
  show V c (Pipeline.arrRef spec2 1) (((cfg2.win 1).blk t).view.emb (ix2 0 k)) = V c (Pipeline.arrRef spec2 1) _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * k.val = k.val; omega

/-- Block `t` of the graph ids, at `(r, 0)`: row `5000 t + r`. -/
theorem blk2_apply (c : Dev nD) (t : Fin cfg2.N) (r : Fin 5000) :
    iblk2 V c 2 t (ix2 r 0) = idsA V c (ix2 ⟨5000 * t.val + r.val, rowLt t r⟩ 0) := by
  obtain ⟨-, -, -, -, e0, e1, -⟩ := idx_facts t
  show V c (Pipeline.arrRef spec2 2) (((cfg2.win 2).blk t).view.emb (ix2 r 0)) = V c (Pipeline.arrRef spec2 2) _
  refine congrArg _ (funext fun a => Fin.ext ?_)
  match a with
  | ⟨0, _⟩ => show win2_2.index t (0 : Fin 2) * 5000 + 1 * r.val = 5000 * t.val + r.val; omega
  | ⟨1, _⟩ => show win2_2.index t (1 : Fin 2) * 1 + 1 * 0 = 0; omega

/-- The output weights' block is the array. -/
theorem blk3_apply (c : Dev nD) (t : Fin cfg2.N) (k : Fin 128) (j : Fin 10) :
    iblk2 V c 3 t (ix2 k j) = wlinA V c (ix2 k j) := by
  obtain ⟨-, -, -, -, -, -, e0, e1, -⟩ := idx_facts t
  show V c (Pipeline.arrRef spec2 3) (((cfg2.win 3).blk t).view.emb (ix2 k j)) = V c (Pipeline.arrRef spec2 3) _
  refine congrArg _ (funext fun a => Fin.ext ?_)
  match a with
  | ⟨0, _⟩ => show win2_3.index t (0 : Fin 2) * 128 + 1 * k.val = k.val; omega
  | ⟨1, _⟩ => show win2_3.index t (1 : Fin 2) * 10 + 1 * j.val = j.val; omega

/-- The output bias row's block is the row. -/
theorem blk4_apply (c : Dev nD) (t : Fin cfg2.N) (j : Fin 10) :
    iblk2 V c 4 t (ix2 0 j) = blinA V c (ix2 0 j) := by
  obtain ⟨-, -, -, -, -, -, -, -, e0, e1, -⟩ := idx_facts t
  show V c (Pipeline.arrRef spec2 4) (((cfg2.win 4).blk t).view.emb (ix2 0 j)) = V c (Pipeline.arrRef spec2 4) _
  refine congrArg _ (funext fun a => Fin.ext ?_)
  match a with
  | ⟨0, _⟩ => show win2_4.index t (0 : Fin 2) * 1 + 1 * 0 = 0; omega
  | ⟨1, _⟩ => show win2_4.index t (1 : Fin 2) * 10 + 1 * j.val = j.val; omega

/-! ## The accumulators, by induction on the point -/

/-- Node `n`'s term of the sums accumulator at `(g, k)`, the node given as a natural number (zero past the array). -/
def nodeS (c : Dev nD) (g k : Fin 128) (n : ℕ) : EReal :=
  if h : n < 100000 then Cert.Spec.ind (idsA V c) ⟨n, h⟩ g * Cert.Spec.reluBias (aggA V c) (biasA V c) (ix2 ⟨n, h⟩ k) else 0

/-- Node `n`'s term of the counts accumulator at row `g`. -/
def nodeC (c : Dev nD) (g : Fin 128) (n : ℕ) : EReal :=
  if h : n < 100000 then Cert.Spec.ind (idsA V c) ⟨n, h⟩ g * Cert.Spec.one else 0

/-- Point `t`'s three row blocks at their literal types. -/
abbrev rows0 (c : Dev nD) (t : Fin cfg2.N) : Vec Ideal S5000x128 .f32 := iblk2 V c 0 t
abbrev rows1 (c : Dev nD) (t : Fin cfg2.N) : Vec Ideal S1x128 .f32 := iblk2 V c 1 t
abbrev rows2 (c : Dev nD) (t : Fin cfg2.N) : Vec Ideal S5000x1 .i32 := iblk2 V c 2 t

/-- Row `r` of point `t`'s blocks contributes node `5000 t + r`'s term to the sums … -/
theorem termS (c : Dev nD) (t : Fin cfg2.N) (r : Fin 5000) (g k : Fin 128) :
    oh (rows2 V c t) r g * max (rows0 V c t (ix2 r k) + rows1 V c t (ix2 0 k)) 0 = nodeS V c g k (5000 * t.val + r.val) := by
  unfold nodeS oh
  rw [dif_pos (rowLt t r), show rows0 V c t (ix2 r k) = _ from blk0_apply V c t r k,
    show rows1 V c t (ix2 0 k) = _ from blk1_apply V c t k, show rows2 V c t (ix2 r 0) = _ from blk2_apply V c t r]
  rfl

/-- … and to the counts. -/
theorem termC (c : Dev nD) (t : Fin cfg2.N) (r : Fin 5000) (g : Fin 128) :
    oh (rows2 V c t) r g * Cert.Spec.one = nodeC V c g (5000 * t.val + r.val) := by
  unfold nodeC oh
  rw [dif_pos (rowLt t r), show rows2 V c t (ix2 r 0) = _ from blk2_apply V c t r]
  rfl

/-- After point `n` the sums accumulator holds the terms of the nodes of blocks `0 … n`. -/
theorem acc2_fst (c : Dev nD) : ∀ (n : ℕ) (h : n < cfg2.N) (g k : Fin 128),
    (acc2 V c n h).1 (ix2 g k) = ∑ t ∈ Finset.range (n + 1), ∑ r : Fin 5000, nodeS V c g k (5000 * t + r.val)
  | 0, h, g, k => by
    rw [acc2_zero]
    show k2_pay5 _ _ _ _ (ix2 g k) = _
    rw [pay5_apply, pay2_apply, zero_add, Finset.sum_range_one]
    exact Finset.sum_congr rfl fun r _ => termS V c ⟨0, h⟩ r g k
  | n + 1, h, g, k => by
    rw [acc2_succ]
    show k2_pay5 _ _ _ _ (ix2 g k) = _
    rw [pay5_apply, acc2_fst c n (Nat.lt_of_succ_lt h) g k, Finset.sum_range_succ _ (n + 1)]
    exact congrArg _ (Finset.sum_congr rfl fun r _ => termS V c ⟨n + 1, h⟩ r g k)

/-- After point `n` the counts accumulator holds, in every column, the count terms of the nodes of blocks `0 … n`. -/
theorem acc2_snd (c : Dev nD) : ∀ (n : ℕ) (h : n < cfg2.N) (g k : Fin 128),
    (acc2 V c n h).2 (ix2 g k) = ∑ t ∈ Finset.range (n + 1), ∑ r : Fin 5000, nodeC V c g (5000 * t + r.val)
  | 0, h, g, k => by
    rw [acc2_zero]
    show k2_pay6 _ _ (ix2 g k) = _
    rw [pay6_apply, pay3_apply, zero_add, Finset.sum_range_one]
    exact Finset.sum_congr rfl fun r _ => termC V c ⟨0, h⟩ r g
  | n + 1, h, g, k => by
    rw [acc2_succ]
    show k2_pay6 _ _ (ix2 g k) = _
    rw [pay6_apply, acc2_snd c n (Nat.lt_of_succ_lt h) g k, Finset.sum_range_succ _ (n + 1)]
    exact congrArg _ (Finset.sum_congr rfl fun r _ => termC V c ⟨n + 1, h⟩ r g)

/-! ## Twenty blocks of 5000 rows are the 100000 rows -/

/-- A sum over `a` consecutive blocks of `b` is the sum over the first `a * b` naturals. -/
theorem sum_blocks {M : Type*} [AddCommMonoid M] (f : ℕ → M) (b : ℕ) : ∀ a : ℕ,
    ∑ t ∈ Finset.range a, ∑ r : Fin b, f (b * t + r.val) = ∑ n ∈ Finset.range (a * b), f n
  | 0 => by simp
  | a + 1 => by
    rw [Finset.sum_range_succ, sum_blocks f b a, Nat.succ_mul, Finset.sum_range_add, Nat.mul_comm a b]
    exact congrArg _ (Finset.sum_range (fun r => f (b * a + r))).symm

/-- The sums accumulator after the last point is the per-graph sum of the rectified rows. -/
theorem acc2_fst_last (c : Dev nD) (h : 19 < cfg2.N) (g k : Fin 128) :
    (acc2 V c 19 h).1 (ix2 g k) = Cert.Spec.segSum (idsA V c) (Cert.Spec.reluBias (aggA V c) (biasA V c)) (ix2 g k) := by
  rw [acc2_fst, sum_blocks _ 5000 20, Finset.sum_range]
  unfold Cert.Spec.segSum
  exact Finset.sum_congr rfl fun n _ => by unfold nodeS; rw [dif_pos n.isLt]

/-- The counts accumulator after the last point is, in every column, the per-graph node count. -/
theorem acc2_snd_last (c : Dev nD) (h : 19 < cfg2.N) (g k : Fin 128) :
    (acc2 V c 19 h).2 (ix2 g k) = Cert.Spec.segCount (idsA V c) g := by
  rw [acc2_snd, sum_blocks _ 5000 20, Finset.sum_range]
  unfold Cert.Spec.segCount
  exact Finset.sum_congr rfl fun n _ => by unfold nodeC; rw [dif_pos n.isLt]

/-! ## The result array -/

/-- The last point, the only one whose result block is written back. -/
abbrev tLast : Fin cfg2.N := ⟨19, by rw [show cfg2.N = 20 from N_2]; decide⟩

/-- The mean pool and the linear layer of the region's input arrays. -/
abbrev resultA (c : Dev nD) : Cert.Spec.Mat 128 10 :=
  Cert.Spec.poolLinear (aggA V c) (biasA V c) (idsA V c) (wlinA V c) (blinA V c)

/-- What the last point stores in the result block. -/
theorem out2_5_last (c : Dev nD) : out2_5 V c tLast = resultA V c := by
  funext i
  obtain ⟨g, j, rfl⟩ : ∃ (g : Fin 128) (j : Fin 10), i = ix2 g j := ⟨i 0, i 1, eq_ix2 i⟩
  unfold out2_5
  rw [pay1_apply]
  show (∑ k : Fin 128, Ideal.div ((acc2 V c 19 tLast.isLt).1 (ix2 g k)) (max ((acc2 V c 19 tLast.isLt).2 (ix2 g k)) Cert.Spec.one) * iblk2 V c 3 tLast (ix2 k j))
      + iblk2 V c 4 tLast (ix2 0 j)
    = (∑ k : Fin 128, Ideal.div (Cert.Spec.segSum (idsA V c) (Cert.Spec.reluBias (aggA V c) (biasA V c)) (ix2 g k)) (max (Cert.Spec.segCount (idsA V c) g) Cert.Spec.one) * wlinA V c (ix2 k j))
      + blinA V c (ix2 0 j)
  rw [blk4_apply]
  refine congrArg (· + blinA V c (ix2 0 j)) (Finset.sum_congr rfl fun k _ => ?_)
  rw [acc2_fst_last, acc2_snd_last, blk3_apply]

/-- The one write-back, after the last point, writes it: the result block at index (0, 0) is the whole array. -/
theorem flushed5_eq (c : Dev nD) (t : Fin cfg2.N) (hf : (cfg2.win 5).flush t = true) :
    (dat2 V c).flushed 5 t = ((cfg2.win 5).blk t).view.read (Elt Ideal) (resultA V c) := by
  have hN : cfg2.N = 20 := N_2
  have h19 : t.val = 19 := by have := (flush2_5 t).mp hf; have := t.isLt; omega
  obtain rfl : t = tLast := Fin.ext h19
  show (cfg2.win 5).cut (grid2.coords tLast) ((dat2 V c).after 5 tLast) = _
  rw [after2_5, out2_5_last]
  have hz' : (fun a => win2_5.index tLast a * main_v62.ty.shape.size a) = fun _ => 0 := funext fun a => by fin_cases a <;> decide +kernel
  exact (Memref.read_access_unit_zero (Elt Ideal) main_v62 hz' (fun a => by rw [congrFun hz' a]; simp) (resultA V c)).symm

/-- The result array after the region: the mean pool and the linear layer of the arrays the region was entered with. -/
theorem arr2 (c : Dev nD) :
    (dat2 (F := Ideal) V c).arrAt 5 cfg2.N
      = Cert.Spec.poolLinear (V c (Pipeline.arrRef spec2 0) : Cert.Spec.Mat 100000 128) (V c (Pipeline.arrRef spec2 1) : Cert.Spec.Mat 1 128)
          (V c (Pipeline.arrRef spec2 2) : Cert.Spec.Ids 100000) (V c (Pipeline.arrRef spec2 3) : Cert.Spec.Mat 128 10) (V c (Pipeline.arrRef spec2 4) : Cert.Spec.Mat 1 10) :=
  (dat2 V c).arrAt_eq_of_cover 5 (resultA V c) (flushed5_eq V c) fun i =>
    ⟨tLast, (flush2_5 tLast).mpr rfl, by
      show i ∈ ((View.whole main_v62).slice (win2_5.rect tLast)).set
      rw [View.set_slice_whole, Rect.mem_set_unit]
      intro a
      have h0 : (i 0 : Nat) < 128 := (i 0).isLt
      have h1 : (i 1 : Nat) < 10 := (i 1).isLt
      match a with
      | ⟨0, _⟩ =>
        show win2_5.index tLast 0 * win2_5.size 0 ≤ (i 0 : Nat) ∧ (i 0 : Nat) < win2_5.index tLast 0 * win2_5.size 0 + win2_5.xsize (grid2.coords tLast) 0
        rw [show win2_5.index tLast 0 * win2_5.size 0 = 0 from by decide +kernel, show win2_5.xsize (grid2.coords tLast) 0 = 128 from by decide +kernel]; omega
      | ⟨1, _⟩ =>
        show win2_5.index tLast 1 * win2_5.size 1 ≤ (i 1 : Nat) ∧ (i 1 : Nat) < win2_5.index tLast 1 * win2_5.size 1 + win2_5.xsize (grid2.coords tLast) 1
        rw [show win2_5.index tLast 1 * win2_5.size 1 = 0 from by decide +kernel, show win2_5.xsize (grid2.coords tLast) 1 = 10 from by decide +kernel]; omega⟩

end Cert.KernelIdeal.Region.Val2
end
-- ==== Proof.KI.Result.lean ====
/-
  What the kernel program leaves in its result array, at the exact-real float family, and its run with that result:
      `poolLinear (Agg (mm (reluBias (Agg (mm x W₁) …) b₁) W₂) …) b₂ batch W_lin b_lin`,
  `Agg` the normalised adjacency operator with the source list, the edge coefficients and the destination list the
  reference computes from the edge index. Each region's array after its write-backs is the specification's function of
  the region's entry contents; each host stretch carries the value on; the arguments reach every region untouched.
-/
import proofs.«426831_j88648124990792_1_alg».proof.Proof.KI.Glue
import proofs.«426831_j88648124990792_1_alg».proof.Proof.KI.Reg2
import proofs.«426831_j88648124990792_1_alg».proof.Proof.KI.RunCond
import proofs.«426831_j88648124990792_1_alg».proof.Proof.KI.Val0
import proofs.«426831_j88648124990792_1_alg».proof.Proof.KI.Val1
import proofs.«426831_j88648124990792_1_alg».proof.Proof.KI.Val2
import Idealize.ShloMosaic.Lib.ValueLayout

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.AggStage (Agg)
open Cert.ReferenceIdeal.Read (val_main_v3 val_main_v6 val_main_v29)

/-! ## A vector reshaped to a row, or to a column -/

/-- A length-`a` vector cast to `[1, a]` is the vector as a row. -/
theorem row_cast {a : ℕ} (v : (⟨1, ![a]⟩ : Shape).Idx → EReal) (h : (⟨1, ![a]⟩ : Shape).ShapeCasts ⟨2, ![1, a]⟩) :
    shapeCast ⟨2, ![1, a]⟩ v h = Cert.Spec.rowOf v := by
  funext i
  obtain ⟨u, q, rfl⟩ : ∃ u q, i = ix2 u q := ⟨i 0, i 1, eq_ix2 i⟩
  exact shapeCast_a_1a_apply v h u q

/-- A length-`a` vector of ids cast to `[a, 1]` is the vector as a column. -/
theorem col_cast {a : ℕ} (v : (⟨1, ![a]⟩ : Shape).Idx → BitVec 32) (h : (⟨1, ![a]⟩ : Shape).ShapeCasts ⟨2, ![a, 1]⟩) :
    shapeCast ⟨2, ![a, 1]⟩ v h = Cert.Spec.colOf v := by
  funext i
  obtain ⟨q, u, rfl⟩ : ∃ q u, i = ix2 q u := ⟨i 0, i 1, eq_ix2 i⟩
  refine shapeCast_apply v h _ (ix1 q) ?_
  have hu : u.val = 0 := by omega
  rw [Shape.rowMajor_val_two, Shape.rowMajor_val_one]
  show q.val = q.val * 1 + u.val
  omega

/-! ## The result -/

variable (m : (ℓ : Loc nD τ sig) → Buf (Elt Ideal) ℓ) (c : Dev nD)

/-- The source list, the edge coefficients and the destination list, from the edge index. -/
abbrev srcs := val_main_v3 (F := Ideal) (m ((c : Thread nD τ).loc main_arg1))
abbrev coef := val_main_v29 (F := Ideal) (m ((c : Thread nD τ).loc main_arg1))
abbrev dsts := val_main_v6 (F := Ideal) (m ((c : Thread nD τ).loc main_arg1))

/-- The first layer before its bias: the aggregated first transform. -/
def layer1 := Agg (F := Ideal) (Cert.Spec.mm (m ((c : Thread nD τ).loc main_arg0)) (m ((c : Thread nD τ).loc main_arg3))) (srcs m c) (coef m c) (dsts m c)

/-- The second layer before its bias: the aggregated second transform of the rectified first layer. -/
def layer2 := Agg (F := Ideal) (Cert.Spec.mm (Cert.Spec.reluBias (layer1 m c) (Cert.Spec.rowOf (m ((c : Thread nD τ).loc main_arg4)))) (m ((c : Thread nD τ).loc main_arg5)))
  (srcs m c) (coef m c) (dsts m c)

/-- What the program returns. -/
def result : Cert.Spec.Mat 128 10 :=
  Cert.Spec.poolLinear (layer2 m c) (Cert.Spec.rowOf (m ((c : Thread nD τ).loc main_arg6))) (Cert.Spec.colOf (m ((c : Thread nD τ).loc main_arg2)))
    (m ((c : Thread nD τ).loc main_arg7)) (Cert.Spec.rowOf (m ((c : Thread nD τ).loc main_arg8)))

/-- Region 0 leaves the first transform. -/
theorem out0_eq : U4 m c main_v30 = Cert.Spec.mm (m ((c : Thread nD τ).loc main_arg0)) (m ((c : Thread nD τ).loc main_arg3)) := by
  have e0 : En3 m c (Pipeline.arrRef spec0 0) = m ((c : Thread nD τ).loc main_arg0) := V3_arg m c main_arg0 (by decide) (by decide) (by decide)
  have e1 : En3 m c (Pipeline.arrRef spec0 1) = m ((c : Thread nD τ).loc main_arg3) := V3_arg m c main_arg3 (by decide) (by decide) (by decide)
  refine (U4_self m c).trans ((W4_arr m c 2).trans ((Val0.arr0 (En3 m) c).trans ?_))
  rw [e0, e1]

/-- The first aggregation stretch leaves the first layer. -/
theorem agg1_eq : U5 m c main_v43 = layer1 m c := by
  rw [U5_v43, out0_eq, U4_of_ne m c main_v3 (by decide), U4_of_ne m c main_v29 (by decide), U4_of_ne m c main_v6 (by decide),
    V3_row, V3_nrm, V3_col]
  rfl

/-- Region 1 leaves the second transform of the rectified first layer. -/
theorem out1_eq : U6 m c main_v45
    = Cert.Spec.mm (Cert.Spec.reluBias (layer1 m c) (Cert.Spec.rowOf (m ((c : Thread nD τ).loc main_arg4)))) (m ((c : Thread nD τ).loc main_arg5)) := by
  have e0 : En5 m c (Pipeline.arrRef spec1 0) = layer1 m c := agg1_eq m c
  have e1 : En5 m c (Pipeline.arrRef spec1 1) = Cert.Spec.rowOf (m ((c : Thread nD τ).loc main_arg4)) := by
    refine (U5_v44 m c).trans ?_
    rw [U4_of_ne m c main_arg4 (by decide), V3_arg m c main_arg4 (by decide) (by decide) (by decide)]
    exact row_cast _ _
  have e2 : En5 m c (Pipeline.arrRef spec1 2) = m ((c : Thread nD τ).loc main_arg5) :=
    (U5_keep m c main_arg5 (by decide) (by decide)).trans (V3_arg m c main_arg5 (by decide) (by decide) (by decide))
  refine (U6_self m c).trans ((W6_arr m c 3).trans ((Val1.arr1 (En5 m) c).trans ?_))
  rw [e0, e1, e2]

/-- The second aggregation stretch leaves the second layer. -/
theorem agg2_eq : U7 m c main_v58 = layer2 m c := by
  rw [U7_v58, out1_eq, U6_keep m c main_v3 (by decide) (by decide) (by decide), U6_keep m c main_v29 (by decide) (by decide) (by decide),
    U6_keep m c main_v6 (by decide) (by decide) (by decide), V3_row, V3_nrm, V3_col]
  rfl

/-- Region 2 leaves the pooled linear layer of the second layer: the program's result. -/
theorem result_eq : U8 m c main_v62 = result m c := by
  have e0 : En7 m c (Pipeline.arrRef spec2 0) = layer2 m c := agg2_eq m c
  have e1 : En7 m c (Pipeline.arrRef spec2 1) = Cert.Spec.rowOf (m ((c : Thread nD τ).loc main_arg6)) := by
    refine (U7_v60 m c).trans ?_
    rw [U6_keep m c main_arg6 (by decide) (by decide) (by decide), V3_arg m c main_arg6 (by decide) (by decide) (by decide)]
    exact row_cast _ _
  have e2 : En7 m c (Pipeline.arrRef spec2 2) = Cert.Spec.colOf (m ((c : Thread nD τ).loc main_arg2)) := by
    refine (U7_v59 m c).trans ?_
    rw [U6_keep m c main_arg2 (by decide) (by decide) (by decide), V3_arg m c main_arg2 (by decide) (by decide) (by decide)]
    exact col_cast _ _
  have e3 : En7 m c (Pipeline.arrRef spec2 3) = m ((c : Thread nD τ).loc main_arg7) :=
    (U7_keep m c main_arg7 (by decide) (by decide) (by decide) (by decide)).trans (V3_arg m c main_arg7 (by decide) (by decide) (by decide))
  have e4 : En7 m c (Pipeline.arrRef spec2 4) = Cert.Spec.rowOf (m ((c : Thread nD τ).loc main_arg8)) := by
    refine (U7_v61 m c).trans ?_
    rw [U6_keep m c main_arg8 (by decide) (by decide) (by decide), V3_arg m c main_arg8 (by decide) (by decide) (by decide)]
    exact row_cast _ _
  refine (U8_self m c).trans ((W8_arr m c 5).trans ((Val2.arr2 (En7 m) c).trans ?_))
  rw [e0, e1, e2, e3, e4]
  rfl

/-! ## The run with its result -/

/-- Every weakly fair execution of @main terminates with the result array at `result` and every argument as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v62) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans ((congrFun (V8_eq m c) _).trans (result_eq m c)), (h c).2⟩)
    (run_cond m emb₁ () Variants.none L₀ lv₀ (fun _ _ => rfl) ρ (outs m) (pdats m) (fun _ => 0) (fun _ => BI.emp)
      (initOf (Pipeline.cells cfgs cellOf_inj) (Pipeline.launchToks cfgs cellOf_inj)) hu₀
      (fun _ c => Rr c) (hE0 ρ) (fun c => by iintro ⟨-, H⟩; iexact H)
      (reg0 m) (fun _ => .rfl) (fun _ => .rfl)
      (reg1 m) (fun _ => .rfl) (fun _ => .rfl)
      (reg2 m body_obligation2 hin2 hout2) (fun _ => .rfl) (fun _ => .rfl))

end Cert.KernelIdeal.Region

end
-- ==== Proof.LibScatterRows.lean ====
/-
  The host's accumulating scatter of rows, read at an index.

  The operand is a `[G, N]` array, the scatter indices a column `[M, 1]` of words, the updates `[M, N]`: update row
  `n` is added to operand row `idx (n, 0)`, the word read as a signed integer; a row whose word names no operand row
  is dropped. So element `(g, k)` of the result is the operand's plus the sum, over the rows `n` whose word is `g`, of
  `upd (n, k)`. With the rank-1 analogue (operand `[G]`, updates `[M]`), these are the per-graph sums and counts of a
  mean pool.
-/
import Idealize.ShloMosaic.PureOps.Ideal
import Idealize.ShloMosaic.PureOps.Dims
import Idealize.ShloMosaic.PureOps.Contract
import Idealize.ShloMosaic.Lib.ValueIdx
import proofs.«426831_j88648124990792_1_alg».proof.Proof.Spec

noncomputable section

namespace Cert.LibScatterRows

open Idealize.ShloMosaic Idealize.ShloMosaic.ValueIdx
open scoped BigOperators

/-! ## Words -/

/-- A 32-bit word reads, signed, as the natural `g` below `2 ^ 31` exactly when it is the word of `g`. -/
theorem toInt_eq_iff (x : BitVec 32) (g : ℕ) (hg : g < 2147483648) : x.toInt = (g : Int) ↔ x = BitVec.ofNat 32 g := by
  constructor
  · intro h
    apply BitVec.eq_of_toNat_eq
    rw [BitVec.toNat_ofNat]
    have := x.isLt
    rw [BitVec.toInt_eq_toNat_cond] at h
    split at h <;> omega
  · rintro rfl
    rw [BitVec.toInt_eq_toNat_cond, BitVec.toNat_ofNat]
    split <;> omega

/-! ## Rows into a rank-2 operand -/

section Rows
variable {G M N w : ℕ}

/-- The dimension numbers of a row scatter: the updates' axis 1 is the window, the operand's axis 0 is inserted and
    is the one the index names, the index vector lies along the scatter indices' axis 1. -/
abbrev rowDims (wf : ScatterDims.WF ⟨2, ![G, N]⟩ ⟨2, ![M, 1]⟩ ⟨2, ![M, N]⟩ [1] [0] [0] 1) :
    ScatterDims ⟨2, ![G, N]⟩ ⟨2, ![M, 1]⟩ ⟨2, ![M, N]⟩ where
  updateWindowDims := [1]
  insertedWindowDims := [0]
  scatterDimsToOperandDims := [0]
  indexVectorDim := 1
  wf := wf

variable (wf : ScatterDims.WF ⟨2, ![G, N]⟩ ⟨2, ![M, 1]⟩ ⟨2, ![M, N]⟩ [1] [0] [0] 1)

theorem rows_start0 (j : (⟨2, ![M, N]⟩ : Shape).Idx) (idx : IVec ⟨2, ![M, 1]⟩ w) :
    (rowDims wf).start j idx 0 = (idx (ix2 (j 0) 0)).toInt := by
  unfold ScatterDims.start
  rw [dif_pos (show (0 : Fin 2) ∈ (rowDims wf).scatterDimsToOperandDims from List.mem_singleton.mpr rfl)]
  have hsi : (rowDims wf).siIdx j ⟨List.idxOf (0 : Fin 2) (rowDims wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rows_start1 (j : (⟨2, ![M, N]⟩ : Shape).Idx) (idx : IVec ⟨2, ![M, 1]⟩ w) :
    (rowDims wf).start j idx 1 = 0 := by
  unfold ScatterDims.start
  rw [dif_neg (show ¬(1 : Fin 2) ∈ (rowDims wf).scatterDimsToOperandDims from (by decide : ¬(1 : Fin 2) ∈ [(0 : Fin 2)]))]

theorem rows_window0 (j : (⟨2, ![M, N]⟩ : Shape).Idx) : (rowDims wf).window j 0 = 0 := by
  unfold ScatterDims.window
  rw [dif_neg (show ¬(0 : Fin 2) ∈ (rowDims wf).sKept from (by decide : ¬(0 : Fin 2) ∈ [(1 : Fin 2)]))]

theorem rows_window1 (j : (⟨2, ![M, N]⟩ : Shape).Idx) : (rowDims wf).window j 1 = (j 1).val := by
  unfold ScatterDims.window
  rw [dif_pos (show (1 : Fin 2) ∈ (rowDims wf).sKept from (by decide : (1 : Fin 2) ∈ [(1 : Fin 2)]))]
  rfl

/-- Where update element `(n, k')` lands: on operand element `(g, k)` exactly when the word of row `n` reads `g` and
    the columns agree. A word that reads negative or at least `G` lands nowhere. -/
theorem rows_resultIdx_iff (n : Fin M) (k' : Fin N) (idx : IVec ⟨2, ![M, 1]⟩ w) (g : Fin G) (k : Fin N) :
    (rowDims wf).resultIdx? (ix2 n k') idx = some (ix2 g k) ↔ ((idx (ix2 n 0)).toInt = (g.val : Int) ∧ k' = k) := by
  have hs0 : (rowDims wf).start (ix2 n k') idx 0 + ((rowDims wf).window (ix2 n k') 0 : ℕ) = (idx (ix2 n 0)).toInt := by
    rw [rows_start0, rows_window0]
    show (idx (ix2 n 0)).toInt + ((0 : ℕ) : ℤ) = _
    omega
  have hs1 : (rowDims wf).start (ix2 n k') idx 1 + ((rowDims wf).window (ix2 n k') 1 : ℕ) = (k'.val : ℤ) := by
    rw [rows_start1, rows_window1]
    show (0 : ℤ) + ((k'.val : ℕ) : ℤ) = _
    omega
  unfold ScatterDims.resultIdx?
  split
  · next h =>
    constructor
    · intro e
      have e := Option.some.inj e
      have e0 : ((rowDims wf).start (ix2 n k') idx 0 + ((rowDims wf).window (ix2 n k') 0 : ℕ)).toNat = g.val :=
        congrArg (fun f => (f 0).val) e
      have e1 : ((rowDims wf).start (ix2 n k') idx 1 + ((rowDims wf).window (ix2 n k') 1 : ℕ)).toNat = k.val :=
        congrArg (fun f => (f 1).val) e
      have h0 := (h 0).1
      rw [hs0] at e0 h0
      rw [hs1] at e1
      exact ⟨by omega, Fin.ext (by omega)⟩
    · rintro ⟨ht, rfl⟩
      congr 1
      funext a
      refine Fin.ext ?_
      match a with
      | ⟨0, _⟩ =>
        show ((rowDims wf).start (ix2 n k') idx 0 + ((rowDims wf).window (ix2 n k') 0 : ℕ)).toNat = g.val
        rw [hs0]; omega
      | ⟨1, _⟩ =>
        show ((rowDims wf).start (ix2 n k') idx 1 + ((rowDims wf).window (ix2 n k') 1 : ℕ)).toNat = k'.val
        rw [hs1]; omega
  · next h =>
    constructor
    · intro e; exact absurd e (by simp)
    · rintro ⟨ht, rfl⟩
      exfalso; apply h
      intro a
      match a with
      | ⟨0, _⟩ =>
        show 0 ≤ (rowDims wf).start (ix2 n k') idx 0 + ((rowDims wf).window (ix2 n k') 0 : ℕ) ∧
          (rowDims wf).start (ix2 n k') idx 0 + ((rowDims wf).window (ix2 n k') 0 : ℕ) < (G : ℤ)
        rw [hs0]; have := g.isLt; omega
      | ⟨1, _⟩ =>
        show 0 ≤ (rowDims wf).start (ix2 n k') idx 1 + ((rowDims wf).window (ix2 n k') 1 : ℕ) ∧
          (rowDims wf).start (ix2 n k') idx 1 + ((rowDims wf).window (ix2 n k') 1 : ℕ) < (N : ℤ)
        rw [hs1]; have := k'.isLt; omega

/-- THE ROW SCATTER READ AT `(g, k)`: the operand's element plus the sum over the update rows whose word is `g`. -/
theorem rows_scatterAdd_apply {φ : FTy} (hG : G ≤ 2147483648) (x : FVec Ideal ⟨2, ![G, N]⟩ φ) (idx : IVec ⟨2, ![M, 1]⟩ 32)
    (upd : FVec Ideal ⟨2, ![M, N]⟩ φ) (g : Fin G) (k : Fin N) :
    Host.scatterAdd (rowDims wf) x idx upd (ix2 g k)
      = x (ix2 g k) + ∑ n : Fin M, (if idx (ix2 n 0) = BitVec.ofNat 32 g.val then 1 else 0) * upd (ix2 n k) := by
  show Ideal.hostScatterAdd (rowDims wf) x idx upd (ix2 g k) = _
  unfold Ideal.hostScatterAdd
  congr 1
  rw [Finset.sum_filter, sum_idx2]
  refine Finset.sum_congr rfl fun n _ => ?_
  simp only [rows_resultIdx_iff, toInt_eq_iff _ _ (show g.val < 2147483648 by have := g.isLt; omega)]
  by_cases hn : idx (ix2 n 0) = BitVec.ofNat 32 g.val
  · simp only [hn, true_and, if_true, one_mul]
    rw [Finset.sum_ite_eq' Finset.univ k (fun k' => upd (ix2 n k'))]
    simp
  · simp [hn]

end Rows

/-- The rows of `upd` scattered onto 128 rows at the ids `idx`: the operand plus the per-graph sums. -/
theorem rows_scatterAdd_eq_segSum {M N : ℕ} {φ : FTy}
    (wf : ScatterDims.WF ⟨2, ![128, N]⟩ ⟨2, ![M, 1]⟩ ⟨2, ![M, N]⟩ [1] [0] [0] 1)
    (x : FVec Ideal ⟨2, ![128, N]⟩ φ) (idx : IVec ⟨2, ![M, 1]⟩ 32) (upd : FVec Ideal ⟨2, ![M, N]⟩ φ)
    (i : (⟨2, ![128, N]⟩ : Shape).Idx) :
    Host.scatterAdd (rowDims wf) x idx upd i = x i + Cert.Spec.segSum idx upd i := by
  obtain ⟨g, k, rfl⟩ : ∃ g k, i = ix2 g k := ⟨i 0, i 1, eq_ix2 i⟩
  rw [rows_scatterAdd_apply wf (by decide)]
  rfl

/-! ## Scalars into a rank-1 operand -/

section Vec
variable {G M w : ℕ}

/-- The dimension numbers of a scatter of scalars: no window, the operand's one axis inserted and named by the
    index, the index vector along the scatter indices' axis 1. -/
abbrev vecDims (wf : ScatterDims.WF ⟨1, ![G]⟩ ⟨2, ![M, 1]⟩ ⟨1, ![M]⟩ [] [0] [0] 1) :
    ScatterDims ⟨1, ![G]⟩ ⟨2, ![M, 1]⟩ ⟨1, ![M]⟩ where
  updateWindowDims := []
  insertedWindowDims := [0]
  scatterDimsToOperandDims := [0]
  indexVectorDim := 1
  wf := wf

variable (wf : ScatterDims.WF ⟨1, ![G]⟩ ⟨2, ![M, 1]⟩ ⟨1, ![M]⟩ [] [0] [0] 1)

theorem vec_start0 (j : (⟨1, ![M]⟩ : Shape).Idx) (idx : IVec ⟨2, ![M, 1]⟩ w) :
    (vecDims wf).start j idx 0 = (idx (ix2 (j 0) 0)).toInt := by
  unfold ScatterDims.start
  rw [dif_pos (show (0 : Fin 1) ∈ (vecDims wf).scatterDimsToOperandDims from List.mem_singleton.mpr rfl)]
  have hsi : (vecDims wf).siIdx j ⟨List.idxOf (0 : Fin 1) (vecDims wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![M]⟩ : Shape).Idx) : (vecDims wf).window j 0 = 0 := by
  unfold ScatterDims.window
  rw [dif_neg (show ¬(0 : Fin 1) ∈ (vecDims wf).sKept from (by decide : ¬(0 : Fin 1) ∈ ([] : List (Fin 1))))]

/-- Where update element `n` lands: on operand element `g` exactly when its word reads `g`. -/
theorem vec_resultIdx_iff (n : Fin M) (idx : IVec ⟨2, ![M, 1]⟩ w) (g : Fin G) :
    (vecDims wf).resultIdx? (ix1 n) idx = some (ix1 g) ↔ (idx (ix2 n 0)).toInt = (g.val : Int) := by
  have hs0 : (vecDims wf).start (ix1 n) idx 0 + ((vecDims wf).window (ix1 n) 0 : ℕ) = (idx (ix2 n 0)).toInt := by
    rw [vec_start0, vec_window0]
    show (idx (ix2 n 0)).toInt + ((0 : ℕ) : ℤ) = _
    omega
  unfold ScatterDims.resultIdx?
  split
  · next h =>
    constructor
    · intro e
      have e := Option.some.inj e
      have e0 : ((vecDims wf).start (ix1 n) idx 0 + ((vecDims wf).window (ix1 n) 0 : ℕ)).toNat = g.val :=
        congrArg (fun f => (f 0).val) e
      have h0 := (h 0).1
      rw [hs0] at e0 h0
      omega
    · intro ht
      congr 1
      funext a
      refine Fin.ext ?_
      match a with
      | ⟨0, _⟩ =>
        show ((vecDims wf).start (ix1 n) idx 0 + ((vecDims wf).window (ix1 n) 0 : ℕ)).toNat = g.val
        rw [hs0]; omega
  · next h =>
    constructor
    · intro e; exact absurd e (by simp)
    · intro ht
      exfalso; apply h
      intro a
      match a with
      | ⟨0, _⟩ =>
        show 0 ≤ (vecDims wf).start (ix1 n) idx 0 + ((vecDims wf).window (ix1 n) 0 : ℕ) ∧
          (vecDims wf).start (ix1 n) idx 0 + ((vecDims wf).window (ix1 n) 0 : ℕ) < (G : ℤ)
        rw [hs0]; have := g.isLt; omega

/-- A sum over a rank-1 index set is the sum over its coordinate. -/
theorem sum_idx1 {n : ℕ} (f : (⟨1, ![n]⟩ : Shape).Idx → EReal) : ∑ i, f i = ∑ a : Fin n, f (ix1 a) := by
  let e : Fin n ≃ (⟨1, ![n]⟩ : Shape).Idx :=
    { toFun := ix1, invFun := fun i => i 0, left_inv := fun _ => rfl, right_inv := fun i => (eq_ix1 i).symm }
  exact (Equiv.sum_comp e f).symm

/-- THE SCALAR SCATTER READ AT `g`: the operand's element plus the sum of the updates whose word is `g`. -/
theorem vec_scatterAdd_apply {φ : FTy} (hG : G ≤ 2147483648) (x : FVec Ideal ⟨1, ![G]⟩ φ) (idx : IVec ⟨2, ![M, 1]⟩ 32)
    (upd : FVec Ideal ⟨1, ![M]⟩ φ) (g : Fin G) :
    Host.scatterAdd (vecDims wf) x idx upd (ix1 g)
      = x (ix1 g) + ∑ n : Fin M, (if idx (ix2 n 0) = BitVec.ofNat 32 g.val then 1 else 0) * upd (ix1 n) := by
  show Ideal.hostScatterAdd (vecDims wf) x idx upd (ix1 g) = _
  unfold Ideal.hostScatterAdd
  congr 1
  rw [Finset.sum_filter, sum_idx1]
  refine Finset.sum_congr rfl fun n _ => ?_
  simp only [vec_resultIdx_iff, toInt_eq_iff _ _ (show g.val < 2147483648 by have := g.isLt; omega)]
  by_cases hn : idx (ix2 n 0) = BitVec.ofNat 32 g.val
  · simp [hn]
  · simp [hn]

/-- The float one scattered onto 128 cells at the ids `idx`: the operand plus the per-graph counts. -/
theorem vec_scatterAdd_eq_segCount {M : ℕ}
    (wf : ScatterDims.WF ⟨1, ![128]⟩ ⟨2, ![M, 1]⟩ ⟨1, ![M]⟩ [] [0] [0] 1)
    (x : FVec Ideal ⟨1, ![128]⟩ .f32) (idx : IVec ⟨2, ![M, 1]⟩ 32) (upd : FVec Ideal ⟨1, ![M]⟩ .f32)
    (hupd : ∀ n, upd n = Cert.Spec.one) (i : (⟨1, ![128]⟩ : Shape).Idx) :
    Host.scatterAdd (vecDims wf) x idx upd i = x i + Cert.Spec.segCount idx (i 0) := by
  obtain ⟨g, rfl⟩ : ∃ g, i = ix1 g := ⟨i 0, eq_ix1 i⟩
  rw [vec_scatterAdd_apply wf (by decide)]
  congr 1
  refine Finset.sum_congr rfl fun n _ => ?_
  rw [hupd]
  rfl

end Vec

end Cert.LibScatterRows

end
-- ==== Proof.RefBridge.lean ====
/-
  The reference program's host stages as the specification's functions.

  Three stages of the reference are read off at every index: the first product is `mm x W₁`; the second is `mm` of
  the rectified, biased first aggregation with `W₂`; the tail — bias, rectifier, per-graph sums and counts, the
  division, the last product and bias — is `poolLinear` of the second aggregation. The aggregation itself (a gather of
  rows, a scaling, a scatter-add of rows) is never opened.
-/
import proofs.«426831_j88648124990792_1_alg».proof.Proof.RefRead
import proofs.«426831_j88648124990792_1_alg».proof.Proof.Spec
import proofs.«426831_j88648124990792_1_alg».proof.Proof.LibRowOps
import proofs.«426831_j88648124990792_1_alg».proof.Proof.LibScatterRows
import Idealize.ShloMosaic.Lib.ValueIdx
import Idealize.ShloMosaic.PureOps.Ideal.Laws

noncomputable section

namespace Cert.ReferenceIdeal.Bridge

open Cert.ReferenceIdeal Cert.ReferenceIdeal.Gen Cert.ReferenceIdeal.Read Cert.Spec
open Idealize.ShloMosaic Idealize.ShloMosaic.ValueIdx Idealize.ShloMosaic.TcCoe Idealize.SL.Sem Idealize.ShloMosaic.StableHlo
open scoped BigOperators

/-! ## The products and the tail, at the ideal instance -/

/-- The first product is the specification's matrix product. -/
theorem v30_eq (x0 : (⟨S100000x128, .f32⟩ : BufTy).Contents (Elt Ideal)) (x3 : (⟨S128x128, .f32⟩ : BufTy).Contents (Elt Ideal)) :
    val_main_v30 (F := Ideal) x0 x3 = Cert.Spec.mm x0 x3 := by
  funext i
  obtain ⟨p, j, rfl⟩ : ∃ p j, i = ix2 p j := ⟨i 0, i 1, eq_ix2 i⟩
  unfold val_main_v30
  rw [Cert.LibRowOps.dotGeneral_plain_apply dot_S100000x128_S128x128_S100000x128_1_0_0_1_n_n rfl]
  rfl

/-- The rectified, biased first aggregation. -/
theorem v47_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) :
    val_main_v47 (F := Ideal) x0 x1 x3 x4
      = Cert.Spec.reluBias (val_main_v43 (F := Ideal) x0 x1 x3) (Cert.Spec.rowOf x4) := by
  funext i
  rw [val_main_v47_apply, val_main_v46_apply, val_main_v45_apply, val_main_v44_apply, val_main_call1_v0_apply,
    val_main_call1_cst_apply]
  generalize val_main_v43 (F := Ideal) x0 x1 x3 = y
  have hi : idx_main_v44 (idx_main_v45 i) = ix1 (i 1) := by
    funext a; match a with | ⟨0, _⟩ => rfl
  rw [hi]
  simp only [Ideal.addf_def, Ideal.maximumf_def, Ideal.ofBits_def, Ideal.ofBits_zero_f32]
  rfl

/-- The second product is the matrix product of the rectified, biased first aggregation with `W₂`. -/
theorem v48_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v48 (F := Ideal) x0 x1 x3 x4 x5
      = Cert.Spec.mm (Cert.Spec.reluBias (val_main_v43 (F := Ideal) x0 x1 x3) (Cert.Spec.rowOf x4)) x5 := by
  unfold val_main_v48
  rw [v47_eq]
  generalize Cert.Spec.reluBias (val_main_v43 (F := Ideal) x0 x1 x3) (Cert.Spec.rowOf x4) = y
  funext i
  obtain ⟨p, j, rfl⟩ : ∃ p j, i = ix2 p j := ⟨i 0, i 1, eq_ix2 i⟩
  rw [Cert.LibRowOps.dotGeneral_plain_apply dot_S100000x128_S128x128_S100000x128_1_0_0_1_n_n rfl]
  rfl

/-- The rectified, biased second aggregation. -/
theorem v65_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v65 (F := Ideal) x0 x1 x3 x4 x5 x6
      = Cert.Spec.reluBias (val_main_v61 (F := Ideal) x0 x1 x3 x4 x5) (Cert.Spec.rowOf x6) := by
  funext i
  rw [val_main_v65_apply, val_main_v64_apply, val_main_v63_apply, val_main_v62_apply, val_main_call2_v0_apply,
    val_main_call2_cst_apply]
  generalize val_main_v61 (F := Ideal) x0 x1 x3 x4 x5 = y
  have hi : idx_main_v62 (idx_main_v63 i) = ix1 (i 1) := by
    funext a; match a with | ⟨0, _⟩ => rfl
  rw [hi]
  simp only [Ideal.addf_def, Ideal.maximumf_def, Ideal.ofBits_def, Ideal.ofBits_zero_f32]
  rfl

/-- The graph ids as a column, for the sums … -/
theorem v67_eq (x2 : (⟨S100000, .i32⟩ : BufTy).Contents (Elt Ideal)) : val_main_v67 (F := Ideal) x2 = Cert.Spec.colOf x2 := by
  funext i
  rw [val_main_v67_apply]
  have hi : idx_main_v67 i = ix1 (i 0) := by
    funext a; match a with | ⟨0, _⟩ => rfl
  rw [hi]
  rfl

/-- … and for the counts. -/
theorem v71_eq (x2 : (⟨S100000, .i32⟩ : BufTy).Contents (Elt Ideal)) : val_main_v71 (F := Ideal) x2 = Cert.Spec.colOf x2 := by
  funext i
  rw [val_main_v71_apply]
  have hi : idx_main_v71 i = ix1 (i 0) := by
    funext a; match a with | ⟨0, _⟩ => rfl
  rw [hi]
  rfl

/-- The per-graph sums of the rectified rows. -/
theorem v68_eq (x0 : (⟨S100000x128, .f32⟩ : BufTy).Contents (Elt Ideal)) (x1 : (⟨S2x1600000, .i32⟩ : BufTy).Contents (Elt Ideal))
    (x2 : (⟨S100000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v68 (F := Ideal) x0 x1 x2 x3 x4 x5 x6
      = Cert.Spec.segSum (Cert.Spec.colOf x2)
          (Cert.Spec.reluBias (val_main_v61 (F := Ideal) x0 x1 x3 x4 x5) (Cert.Spec.rowOf x6)) := by
  unfold val_main_v68
  rw [v65_eq, v67_eq]
  generalize Cert.Spec.reluBias (val_main_v61 (F := Ideal) x0 x1 x3 x4 x5) (Cert.Spec.rowOf x6) = y
  funext i
  refine (Cert.LibScatterRows.rows_scatterAdd_eq_segSum Facts₀.scatter_S128x128_S100000x1_S100000x128_1_0_0_1_wf
    (val_main_v66 (F := Ideal)) (Cert.Spec.colOf x2) y i).trans ?_
  rw [val_main_v66_apply, val_main_cst_12_apply, Ideal.ofBits_def, Ideal.ofBits_zero_f32, zero_add]

/-- The per-graph counts. -/
theorem v72_eq (x2 : (⟨S100000, .i32⟩ : BufTy).Contents (Elt Ideal)) (i : S128.Idx) :
    val_main_v72 (F := Ideal) x2 i = Cert.Spec.segCount (Cert.Spec.colOf x2) (i 0) := by
  unfold val_main_v72
  rw [v71_eq]
  refine (Cert.LibScatterRows.vec_scatterAdd_eq_segCount Facts₀.scatter_S128_S100000x1_S100000_n_0_0_1_wf
    (val_main_v70 (F := Ideal)) (Cert.Spec.colOf x2) (val_main_v69 (F := Ideal)) (fun n => ?_) i).trans ?_
  · rw [val_main_v69_apply, val_main_cst_13_apply, Ideal.ofBits_def]
  · rw [val_main_v70_apply, val_main_cst_14_apply, Ideal.ofBits_def, Ideal.ofBits_zero_f32, zero_add]

/-- The means: each graph's sum over its count, at least one. -/
theorem v77_apply (x0 : (⟨S100000x128, .f32⟩ : BufTy).Contents (Elt Ideal)) (x1 : (⟨S2x1600000, .i32⟩ : BufTy).Contents (Elt Ideal))
    (x2 : (⟨S100000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (g k : Fin 128) :
    val_main_v77 (F := Ideal) x0 x1 x2 x3 x4 x5 x6 (ix2 g k)
      = Ideal.div (Cert.Spec.segSum (Cert.Spec.colOf x2)
            (Cert.Spec.reluBias (val_main_v61 (F := Ideal) x0 x1 x3 x4 x5) (Cert.Spec.rowOf x6)) (ix2 g k))
          (max (Cert.Spec.segCount (Cert.Spec.colOf x2) g) Cert.Spec.one) := by
  rw [val_main_v77_apply, v68_eq, val_main_v76_apply, val_main_v75_apply, val_main_v74_apply, v72_eq, val_main_v73_apply,
    val_main_cst_15_apply]
  simp only [Ideal.hostDivf_def, Ideal.maximumf_def, Ideal.ofBits_def]
  rfl

/-- The tail of the reference — bias, rectifier, mean pool, linear layer — is the specification's `poolLinear` of the
    second aggregation. -/
theorem v81_eq (x0 : (⟨S100000x128, .f32⟩ : BufTy).Contents (Elt Ideal)) (x1 : (⟨S2x1600000, .i32⟩ : BufTy).Contents (Elt Ideal))
    (x2 : (⟨S100000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x10, .f32⟩ : BufTy).Contents (Elt Ideal)) (x8 : (⟨S10, .f32⟩ : BufTy).Contents (Elt Ideal)) :
    val_main_v81 (F := Ideal) x0 x1 x2 x3 x4 x5 x6 x7 x8
      = Cert.Spec.poolLinear (val_main_v61 (F := Ideal) x0 x1 x3 x4 x5) (Cert.Spec.rowOf x6) (Cert.Spec.colOf x2) x7
          (Cert.Spec.rowOf x8) := by
  funext i
  obtain ⟨g, j, rfl⟩ : ∃ g j, i = ix2 g j := ⟨i 0, i 1, eq_ix2 i⟩
  rw [val_main_v81_apply, val_main_v80_apply, val_main_v79_apply]
  have hi : idx_main_v79 (idx_main_v80 (ix2 g j)) = ix1 j := by
    funext a; match a with | ⟨0, _⟩ => rfl
  rw [hi]
  unfold val_main_v78
  rw [Cert.LibRowOps.dotGeneral_plain_apply dot_S128x128_S128x10_S128x10_1_0_0_1_n_n rfl]
  simp only [v77_apply, Ideal.addf_def]
  rfl

end Cert.ReferenceIdeal.Bridge

end
-- ==== Proof.lean ====
/-
  The certificate of a two-layer graph convolution with mean pooling and a final linear layer, written with three
  tiled TensorCore kernels, against its plain reference.

  Both programs compute `poolLinear (A (mm (reluBias (A (mm x W₁)) b₁) W₂)) b₂ batch W_lin b_lin` on the extended reals,
  `A` the normalised adjacency operator (gather, scale, scatter-add), which both spell with the same host operations.
  The kernel program tiles each dense transform over 20 row blocks of 5000 rows (a product of a row block with the
  whole weight matrix is the same rows of the whole product), and replaces the reference's segment sums over the graph
  ids by products with the one-hot matrix of the ids, accumulated block by block: `∑ₙ [batch n = g] · u (n, k)` is the
  sum of `u (n, k)` over the nodes of graph `g`, and a node whose id is outside `[0, 128)` is dropped by both (the
  scatter drops an update that lands outside its operand; the one-hot row of such an id is zero). Only commutativity
  and associativity of the sum and `0 · x = 0`, `1 · x = x` are used, so nothing asks the inputs to be finite.

  The frames: every region's body is run once per control case, the pooling kernel's two scratch accumulators carried
  from point to point by the region's invariant; @main's host stretches and regions are chained as segments.
  The ideal pass rewrote nothing, so the idealization conjunct is trivial.
-/
import proofs.«426831_j88648124990792_1_alg».proof.Defs
import proofs.«426831_j88648124990792_1_alg».proof.Proof.Gen.Kernel
import proofs.«426831_j88648124990792_1_alg».proof.Proof.Gen.KernelIdeal
import proofs.«426831_j88648124990792_1_alg».proof.Proof.Gen.ReferenceIdeal
import proofs.«426831_j88648124990792_1_alg».proof.Proof.Gen.Pre_finite_inputs
import proofs.«426831_j88648124990792_1_alg».proof.Proof.K.Frame
import proofs.«426831_j88648124990792_1_alg».proof.Proof.K.Reg2
import proofs.«426831_j88648124990792_1_alg».proof.Proof.KI.Frame
import proofs.«426831_j88648124990792_1_alg».proof.Proof.KI.Reg2
import proofs.«426831_j88648124990792_1_alg».proof.Proof.KI.Result
import proofs.«426831_j88648124990792_1_alg».proof.Proof.RefRun
import proofs.«426831_j88648124990792_1_alg».proof.Proof.RefRead
import proofs.«426831_j88648124990792_1_alg».proof.Proof.RefAgg
import proofs.«426831_j88648124990792_1_alg».proof.Proof.RefBridge
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ =>
  Cert.Kernel.Region.frame m Cert.Kernel.Region.body_obligation2 Cert.Kernel.Region.hin2 Cert.Kernel.Region.hout2 ρ

/-- The idealized kernel program does the same. -/
theorem frame_ki : Cert.frame_KernelIdeal := fun m ρ _ =>
  Cert.KernelIdeal.Region.frame m Cert.KernelIdeal.Region.body_obligation2 Cert.KernelIdeal.Region.hin2 Cert.KernelIdeal.Region.hout2 ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result: the reference's composed term is,
    stage by stage, the specification's function of the arguments that the kernel program's result is. -/
theorem algebraic : Cert.algebraic_KernelIdeal_ReferenceIdeal := by
  intro m ρ m' ρ' _ hagree
  refine ⟨fun c => Cert.KernelIdeal.Region.result m c, Cert.KernelIdeal.Region.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v81_eq, a0, a1, a2, a3, a4, a5, a6, a7, a8,
    Cert.ReferenceIdeal.Bridge.v81_eq, Cert.ReferenceIdeal.AggStage.v61_agg, Cert.ReferenceIdeal.Bridge.v48_eq,
    Cert.ReferenceIdeal.AggStage.v43_agg, Cert.ReferenceIdeal.Bridge.v30_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
